-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S65536x256 .f32) (main_arg1 : FVec F S131072x256 .f32) (main_arg2 : IVec S65536 32) (main_arg3 : IVec S131072 32) (main_arg4 : FVec F S256 .f32) (main_arg5 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S1024x64x256 : Shape := ⟨3, ![1024, 64, 256]⟩
abbrev S1024x128x256 : Shape := ⟨3, ![1024, 128, 256]⟩
abbrev S1024x64x512 : Shape := ⟨3, ![1024, 64, 512]⟩
abbrev S1024x128x512 : Shape := ⟨3, ![1024, 128, 512]⟩
abbrev S16x64x256 : Shape := ⟨3, ![16, 64, 256]⟩
abbrev S16x128x256 : Shape := ⟨3, ![16, 128, 256]⟩
abbrev S16x64x512 : Shape := ⟨3, ![16, 64, 512]⟩
abbrev S16x128x512 : Shape := ⟨3, ![16, 128, 512]⟩
abbrev S16x64x128 : Shape := ⟨3, ![16, 64, 128]⟩
abbrev S16x64 : Shape := ⟨2, ![16, 64]⟩
abbrev S16x64x1 : Shape := ⟨3, ![16, 64, 1]⟩
abbrev S1x1x256 : Shape := ⟨3, ![1, 1, 256]⟩
abbrev S16x128 : Shape := ⟨2, ![16, 128]⟩
abbrev S16x128x1 : Shape := ⟨3, ![16, 128, 1]⟩
abbrev S65536x512 : Shape := ⟨2, ![65536, 512]⟩
abbrev S131072x512 : Shape := ⟨2, ![131072, 512]⟩

abbrev nBuf : Space → Nat
  | .hbm => 12
  | .vmem => 10
  | .smem => 0
  | _ => 0

abbrev bufTy : (tb : Table) → Fin (tcTables nBuf tb) → BufTy
  | .hbm, ⟨0, _⟩ => ⟨S65536x256, .f32⟩
  | .hbm, ⟨1, _⟩ => ⟨S131072x256, .f32⟩
  | .hbm, ⟨2, _⟩ => ⟨S65536, .i32⟩
  | .hbm, ⟨3, _⟩ => ⟨S131072, .i32⟩
  | .hbm, ⟨4, _⟩ => ⟨S256, .f32⟩
  | .hbm, ⟨5, _⟩ => ⟨S256, .f32⟩
  | .hbm, ⟨6, _⟩ => ⟨S1024x64x256, .f32⟩
  | .hbm, ⟨7, _⟩ => ⟨S1024x128x256, .f32⟩
  | .hbm, ⟨8, _⟩ => ⟨S1024x64x512, .f32⟩
  | .hbm, ⟨9, _⟩ => ⟨S1024x128x512, .f32⟩
  | .hbm, ⟨10, _⟩ => ⟨S65536x512, .f32⟩
  | .hbm, ⟨11, _⟩ => ⟨S131072x512, .f32⟩
  | .local _ .vmem, ⟨0, _⟩ => ⟨S16x64x256, .f32⟩
  | .local _ .vmem, ⟨1, _⟩ => ⟨S16x64x256, .f32⟩
  | .local _ .vmem, ⟨2, _⟩ => ⟨S16x128x256, .f32⟩
  | .local _ .vmem, ⟨3, _⟩ => ⟨S16x128x256, .f32⟩
  | .local _ .vmem, ⟨4, _⟩ => ⟨S256, .f32⟩
  | .local _ .vmem, ⟨5, _⟩ => ⟨S256, .f32⟩
  | .local _ .vmem, ⟨6, _⟩ => ⟨S16x64x512, .f32⟩
  | .local _ .vmem, ⟨7, _⟩ => ⟨S16x64x512, .f32⟩
  | .local _ .vmem, ⟨8, _⟩ => ⟨S16x128x512, .f32⟩
  | .local _ .vmem, ⟨9, _⟩ => ⟨S16x128x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S65536x256_S1024x64x256 : S65536x256.ShapeCasts S1024x64x256
  shapeCasts_S131072x256_S1024x128x256 : S131072x256.ShapeCasts S1024x128x256
  inb_S16x64x256_S16x64x256_0_0_0 : ∀ a, (![0, 0, 0] : Fin 3 → Nat) a + S16x64x256.size a ≤ S16x64x256.size a
  h_S16x64x256 : 0 < S16x64x256.numel
  shapeCasts_S16x64x256_S16x64x256 : S16x64x256.ShapeCasts S16x64x256
  inb_S16x128x256_S16x128x256_0_0_0 : ∀ a, (![0, 0, 0] : Fin 3 → Nat) a + S16x128x256.size a ≤ S16x128x256.size a
  h_S16x128x256 : 0 < S16x128x256.numel
  shapeCasts_S16x128x256_S16x128x256 : S16x128x256.ShapeCasts S16x128x256
  inb_S256_S256_0 : ∀ a, (![0] : Fin 1 → Nat) a + S256.size a ≤ S256.size a
  h_S256 : 0 < S256.numel
  bitsLt_bf16_f32 : FTy.bits .bf16 < FTy.bits .f32
  reduces_S16x64x256_S16x64 : S16x64x256.Reduces [2] S16x64
  shapeCasts_S16x64_S16x64x1 : S16x64.ShapeCasts S16x64x1
  broadcasts_S16x64x1_S16x64x256 : S16x64x1.Broadcasts S16x64x256
  shapeCasts_S256_S1x1x256 : S256.ShapeCasts S1x1x256
  broadcasts_S1x1x256_S16x64x256 : S1x1x256.Broadcasts S16x64x256
  reduces_S16x128x256_S16x128 : S16x128x256.Reduces [2] S16x128
  shapeCasts_S16x128_S16x128x1 : S16x128.ShapeCasts S16x128x1
  broadcasts_S16x128x1_S16x128x256 : S16x128x1.Broadcasts S16x128x256
  broadcasts_S1x1x256_S16x128x256 : S1x1x256.Broadcasts S16x128x256
  inb_S16x64x512_S16x64x256_0_0_0 : ∀ a, (![0, 0, 0] : Fin 3 → Nat) a + S16x64x256.size a ≤ S16x64x512.size a
  inb_S16x64x512_S16x64x256_0_0_256 : ∀ a, (![0, 0, 256] : Fin 3 → Nat) a + S16x64x256.size a ≤ S16x64x512.size a
  inb_S16x128x512_S16x128x256_0_0_0 : ∀ a, (![0, 0, 0] : Fin 3 → Nat) a + S16x128x256.size a ≤ S16x128x512.size a
  inb_S16x128x512_S16x128x256_0_0_256 : ∀ a, (![0, 0, 256] : Fin 3 → Nat) a + S16x128x256.size a ≤ S16x128x512.size a
  shapeCasts_S1024x64x512_S65536x512 : S1024x64x512.ShapeCasts S65536x512
  shapeCasts_S1024x128x512_S131072x512 : S1024x128x512.ShapeCasts S131072x512
  dot_S16x64x256_S16x128x256_S16x64x128_2_2_1_1_0_0_wf : DotDims.WF S16x64x256 S16x128x256 S16x64x128 [2] [2] [1] [1] [0] [0]
  dot_S16x64x128_S16x128x256_S16x64x256_2_1_1_2_0_0_wf : DotDims.WF S16x64x128 S16x128x256 S16x64x256 [2] [1] [1] [2] [0] [0]
  dot_S16x64x128_S16x64x256_S16x128x256_1_1_2_2_0_0_wf : DotDims.WF S16x64x128 S16x64x256 S16x128x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x256.size a ≤ S1024x64x256.size a
  hwx0_0 : ∀ i : grid0.Coords, EltTy.bits .f32 = 32 ∨ (Rect.block (s := S1024x64x256) S16x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S1024x128x256.size a
  hwx0_1 : ∀ i : grid0.Coords, EltTy.bits .f32 = 32 ∨ (Rect.block (s := S1024x128x256) S16x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x512.size a ≤ S1024x64x512.size a
  hwx0_4 : ∀ i : grid0.Coords, EltTy.bits .f32 = 32 ∨ (Rect.block (s := S1024x64x512) S16x64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x512.size a ≤ S1024x128x512.size a
  hwx0_5 : ∀ i : grid0.Coords, EltTy.bits .f32 = 32 ∨ (Rect.block (s := S1024x128x512) S16x128x512.size (cc0_transform_5 i) (hinb0_5 i)).WholeWords (EltTy.packing .f32)

variable [Facts₀]

def dot_S16x64x256_S16x128x256_S16x64x128_2_2_1_1_0_0 : DotDims S16x64x256 S16x128x256 S16x64x128 where
  lhsContracting := [2]
  rhsContracting := [2]
  lhsNonContracting := [1]
  rhsNonContracting := [1]
  lhsBatch := [0]
  rhsBatch := [0]
  wf := dot_S16x64x256_S16x128x256_S16x64x128_2_2_1_1_0_0_wf
def dot_S16x64x128_S16x128x256_S16x64x256_2_1_1_2_0_0 : DotDims S16x64x128 S16x128x256 S16x64x256 where
  lhsContracting := [2]
  rhsContracting := [1]
  lhsNonContracting := [1]
  rhsNonContracting := [2]
  lhsBatch := [0]
  rhsBatch := [0]
  wf := dot_S16x64x128_S16x128x256_S16x64x256_2_1_1_2_0_0_wf
def dot_S16x64x128_S16x64x256_S16x128x256_1_1_2_2_0_0 : DotDims S16x64x128 S16x64x256 S16x128x256 where
  lhsContracting := [1]
  rhsContracting := [1]
  lhsNonContracting := [2]
  rhsNonContracting := [2]
  lhsBatch := [0]
  rhsBatch := [0]
  wf := dot_S16x64x128_S16x64x256_S16x128x256_1_1_2_2_0_0_wf

abbrev win0_0 : Pipeline.Window sig grid0 :=
  Pipeline.Window.ofSpec (Memref.whole main_v0) S16x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S16x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S16x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S131072x256 : Shape := ⟨2, ![131072, 256]⟩
abbrev S65536 : Shape := ⟨1, ![65536]⟩
abbrev S131072 : Shape := ⟨1, ![131072]⟩
abbrev S256 : Shape := ⟨1, ![256]⟩
abbrev S1024x64x256 : Shape := ⟨3, ![1024, 64, 256]⟩
abbrev S1024x128x256 : Shape := ⟨3, ![1024, 128, 256]⟩
abbrev S1024x64x128 : Shape := ⟨3, ![1024, 64, 128]⟩
abbrev S_ : Shape := ⟨0, ![]⟩
abbrev S1024x64 : Shape := ⟨2, ![1024, 64]⟩
abbrev S1024x64x1 : Shape := ⟨3, ![1024, 64, 1]⟩
abbrev S1x1x256 : Shape := ⟨3, ![1, 1, 256]⟩
abbrev S1024x128 : Shape := ⟨2, ![1024, 128]⟩
abbrev S1024x128x1 : Shape := ⟨3, ![1024, 128, 1]⟩
abbrev S1024x64x512 : Shape := ⟨3, ![1024, 64, 512]⟩
abbrev S65536x512 : Shape := ⟨2, ![65536, 512]⟩
abbrev S1024x128x512 : Shape := ⟨3, ![1024, 128, 512]⟩
abbrev S131072x512 : Shape := ⟨2, ![131072, 512]⟩

abbrev nBuf : Space → Nat
  | .hbm => 84
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S131072x256, .f32⟩
  | .hbm, ⟨2, _⟩ => ⟨S65536, .i32⟩
  | .hbm, ⟨3, _⟩ => ⟨S131072, .i32⟩
  | .hbm, ⟨4, _⟩ => ⟨S256, .f32⟩
  | .hbm, ⟨5, _⟩ => ⟨S256, .f32⟩
  | .hbm, ⟨6, _⟩ => ⟨S1024x64x256, .f32⟩
  | .hbm, ⟨7, _⟩ => ⟨S1024x128x256, .f32⟩
  | .hbm, ⟨8, _⟩ => ⟨S1024x64x128, .f32⟩
  | .hbm, ⟨9, _⟩ => ⟨S_, .f32⟩
  | .hbm, ⟨10, _⟩ => ⟨S1024x64x128, .f32⟩
  | .hbm, ⟨11, _⟩ => ⟨S1024x64x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x64x128, .f32⟩
  | .hbm, ⟨16, _⟩ => ⟨S1024x64x128, .f32⟩
  | .hbm, ⟨17, _⟩ => ⟨S_, .f32⟩
  | .hbm, ⟨18, _⟩ => ⟨S1024x64x128, .f32⟩
  | .hbm, ⟨19, _⟩ => ⟨S1024x64x128, .f32⟩
  | .hbm, ⟨20, _⟩ => ⟨S1024x64x256, .f32⟩
  | .hbm, ⟨21, _⟩ => ⟨S_, .f32⟩
  | .hbm, ⟨22, _⟩ => ⟨S1024x64, .f32⟩
  | .hbm, ⟨23, _⟩ => ⟨S1024x64x1, .f32⟩
  | .hbm, ⟨24, _⟩ => ⟨S_, .f32⟩
  | .hbm, ⟨25, _⟩ => ⟨S1024x64x1, .f32⟩
  | .hbm, ⟨26, _⟩ => ⟨S1024x64x1, .f32⟩
  | .hbm, ⟨27, _⟩ => ⟨S1024x64x256, .f32⟩
  | .hbm, ⟨28, _⟩ => ⟨S1024x64x256, .f32⟩
  | .hbm, ⟨29, _⟩ => ⟨S1024x64x256, .f32⟩
  | .hbm, ⟨30, _⟩ => ⟨S_, .f32⟩
  | .hbm, ⟨31, _⟩ => ⟨S1024x64, .f32⟩
  | .hbm, ⟨32, _⟩ => ⟨S1024x64x1, .f32⟩
  | .hbm, ⟨33, _⟩ => ⟨S_, .f32⟩
  | .hbm, ⟨34, _⟩ => ⟨S1024x64x1, .f32⟩
  | .hbm, ⟨35, _⟩ => ⟨S1024x64x1, .f32⟩
  | .hbm, ⟨36, _⟩ => ⟨S1024x64x256, .f32⟩
  | .hbm, ⟨37, _⟩ => ⟨S1024x64x256, .f32⟩
  | .hbm, ⟨38, _⟩ => ⟨S_, .f32⟩
  | .hbm, ⟨39, _⟩ => ⟨S1024x64x1, .f32⟩
  | .hbm, ⟨40, _⟩ => ⟨S1024x64x1, .f32⟩
  | .hbm, ⟨41, _⟩ => ⟨S1024x64x1, .f32⟩
  | .hbm, ⟨42, _⟩ => ⟨S1024x64x256, .f32⟩
  | .hbm, ⟨43, _⟩ => ⟨S1024x64x256, .f32⟩
  | .hbm, ⟨44, _⟩ => ⟨S1x1x256, .f32⟩
  | .hbm, ⟨45, _⟩ => ⟨S1024x64x256, .f32⟩
  | .hbm, ⟨46, _⟩ => ⟨S1024x64x256, .f32⟩
  | .hbm, ⟨47, _⟩ => ⟨S1x1x256, .f32⟩
  | .hbm, ⟨48, _⟩ => ⟨S1024x64x256, .f32⟩
  | .hbm, ⟨49, _⟩ => ⟨S1024x64x256, .f32⟩
  | .hbm, ⟨50, _⟩ => ⟨S1024x128x256, .f32⟩
  | .hbm, ⟨51, _⟩ => ⟨S_, .f32⟩
  | .hbm, ⟨52, _⟩ => ⟨S1024x128, .f32⟩
  | .hbm, ⟨53, _⟩ => ⟨S1024x128x1, .f32⟩
  | .hbm, ⟨54, _⟩ => ⟨S_, .f32⟩
  | .hbm, ⟨55, _⟩ => ⟨S1024x128x1, .f32⟩
  | .hbm, ⟨56, _⟩ => ⟨S1024x128x1, .f32⟩
  | .hbm, ⟨57, _⟩ => ⟨S1024x128x256, .f32⟩
  | .hbm, ⟨58, _⟩ => ⟨S1024x128x256, .f32⟩
  | .hbm, ⟨59, _⟩ => ⟨S1024x128x256, .f32⟩
  | .hbm, ⟨60, _⟩ => ⟨S_, .f32⟩
  | .hbm, ⟨61, _⟩ => ⟨S1024x128, .f32⟩
  | .hbm, ⟨62, _⟩ => ⟨S1024x128x1, .f32⟩
  | .hbm, ⟨63, _⟩ => ⟨S_, .f32⟩
  | .hbm, ⟨64, _⟩ => ⟨S1024x128x1, .f32⟩
  | .hbm, ⟨65, _⟩ => ⟨S1024x128x1, .f32⟩
  | .hbm, ⟨66, _⟩ => ⟨S1024x128x256, .f32⟩
  | .hbm, ⟨67, _⟩ => ⟨S1024x128x256, .f32⟩
  | .hbm, ⟨68, _⟩ => ⟨S_, .f32⟩
  | .hbm, ⟨69, _⟩ => ⟨S1024x128x1, .f32⟩
  | .hbm, ⟨70, _⟩ => ⟨S1024x128x1, .f32⟩
  | .hbm, ⟨71, _⟩ => ⟨S1024x128x1, .f32⟩
  | .hbm, ⟨72, _⟩ => ⟨S1024x128x256, .f32⟩
  | .hbm, ⟨73, _⟩ => ⟨S1024x128x256, .f32⟩
  | .hbm, ⟨74, _⟩ => ⟨S1x1x256, .f32⟩
  | .hbm, ⟨75, _⟩ => ⟨S1024x128x256, .f32⟩
  | .hbm, ⟨76, _⟩ => ⟨S1024x128x256, .f32⟩
  | .hbm, ⟨77, _⟩ => ⟨S1x1x256, .f32⟩
  | .hbm, ⟨78, _⟩ => ⟨S1024x128x256, .f32⟩
  | .hbm, ⟨79, _⟩ => ⟨S1024x128x256, .f32⟩
  | .hbm, ⟨80, _⟩ => ⟨S1024x64x512, .f32⟩
  | .hbm, ⟨81, _⟩ => ⟨S65536x512, .f32⟩
  | .hbm, ⟨82, _⟩ => ⟨S1024x128x512, .f32⟩
  | .hbm, ⟨83, _⟩ => ⟨S131072x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  shapeCasts_S65536x256_S1024x64x256 : S65536x256.ShapeCasts S1024x64x256
  shapeCasts_S131072x256_S1024x128x256 : S131072x256.ShapeCasts S1024x128x256
  bcast_S_S1024x64x128 : S_.BroadcastsInDim S1024x64x128 (![] : Fin 0 → Fin S1024x64x128.rank)
  reducesTo_S1024x64x256_S1024x64_d2 : S1024x64x256.ReducesTo [2] S1024x64
  h_S_ : 0 < S_.numel
  bcast_S1024x64_S1024x64x1_0_1 : S1024x64.BroadcastsInDim S1024x64x1 (![0, 1] : Fin 2 → Fin S1024x64x1.rank)
  bcast_S_S1024x64x1 : S_.BroadcastsInDim S1024x64x1 (![] : Fin 0 → Fin S1024x64x1.rank)
  bcast_S1024x64x1_S1024x64x256_0_1_2 : S1024x64x1.BroadcastsInDim S1024x64x256 (![0, 1, 2] : Fin 3 → Fin S1024x64x256.rank)
  bcast_S256_S1x1x256_2 : S256.BroadcastsInDim S1x1x256 (![2] : Fin 1 → Fin S1x1x256.rank)
  bcast_S1x1x256_S1024x64x256_0_1_2 : S1x1x256.BroadcastsInDim S1024x64x256 (![0, 1, 2] : Fin 3 → Fin S1024x64x256.rank)
  reducesTo_S1024x128x256_S1024x128_d2 : S1024x128x256.ReducesTo [2] S1024x128
  bcast_S1024x128_S1024x128x1_0_1 : S1024x128.BroadcastsInDim S1024x128x1 (![0, 1] : Fin 2 → Fin S1024x128x1.rank)
  bcast_S_S1024x128x1 : S_.BroadcastsInDim S1024x128x1 (![] : Fin 0 → Fin S1024x128x1.rank)
  bcast_S1024x128x1_S1024x128x256_0_1_2 : S1024x128x1.BroadcastsInDim S1024x128x256 (![0, 1, 2] : Fin 3 → Fin S1024x128x256.rank)
  bcast_S1x1x256_S1024x128x256_0_1_2 : S1x1x256.BroadcastsInDim S1024x128x256 (![0, 1, 2] : Fin 3 → Fin S1024x128x256.rank)
  concatenates_S1024x64x256_S1024x64x256_S1024x64x512_d2 : Shape.Concatenates [S1024x64x256, S1024x64x256] S1024x64x512 2
  shapeCasts_S1024x64x512_S65536x512 : S1024x64x512.ShapeCasts S65536x512
  concatenates_S1024x128x256_S1024x128x256_S1024x128x512_d2 : Shape.Concatenates [S1024x128x256, S1024x128x256] S1024x128x512 2
  shapeCasts_S1024x128x512_S131072x512 : S1024x128x512.ShapeCasts S131072x512
  dot_S1024x64x256_S1024x128x256_S1024x64x128_2_2_1_1_0_0_wf : DotDims.WF S1024x64x256 S1024x128x256 S1024x64x128 [2] [2] [1] [1] [0] [0]
  dot_S1024x64x128_S1024x128x256_S1024x64x256_2_1_1_2_0_0_wf : DotDims.WF S1024x64x128 S1024x128x256 S1024x64x256 [2] [1] [1] [2] [0] [0]
  dot_S1024x64x128_S1024x64x256_S1024x128x256_1_1_2_2_0_0_wf : DotDims.WF S1024x64x128 S1024x64x256 S1024x128x256 [1] [1] [2] [2] [0] [0]

variable [Facts₀]

def dot_S1024x64x256_S1024x128x256_S1024x64x128_2_2_1_1_0_0 : DotDims S1024x64x256 S1024x128x256 S1024x64x128 where
  lhsContracting := [2]
  rhsContracting := [2]
  lhsNonContracting := [1]
  rhsNonContracting := [1]
  lhsBatch := [0]
  rhsBatch := [0]
  wf := dot_S1024x64x256_S1024x128x256_S1024x64x128_2_2_1_1_0_0_wf
def dot_S1024x64x128_S1024x128x256_S1024x64x256_2_1_1_2_0_0 : DotDims S1024x64x128 S1024x128x256 S1024x64x256 where
  lhsContracting := [2]
  rhsContracting := [1]
  lhsNonContracting := [1]
  rhsNonContracting := [2]
  lhsBatch := [0]
  rhsBatch := [0]
  wf := dot_S1024x64x128_S1024x128x256_S1024x64x256_2_1_1_2_0_0_wf
def dot_S1024x64x128_S1024x64x256_S1024x128x256_1_1_2_2_0_0 : DotDims S1024x64x128 S1024x64x256 S1024x128x256 where
  lhsContracting := [1]
  rhsContracting := [1]
  lhsNonContracting := [2]
  rhsNonContracting := [2]
  lhsBatch := [0]
  rhsBatch := [0]
  wf := dot_S1024x64x128_S1024x64x256_S1024x128x256_1_1_2_2_0_0_wf

class Facts : Prop extends Facts₀ where

variable [Facts]
-- ==== Proof.PairMix.lean ====
/-
  What both programs compute for ONE pair of matrices, over the extended reals: `x` with 64 rows and `y` with 128 rows,
  every row of length 256, a scale vector `γ` and a shift vector `β` of length 256.

    gram x y n k    = min hi (max lo ((Σ_d x n d · y k d) · c))     the clipped, scaled matrix of the rows' inner products
    mixRows x y n d = Σ_k gram x y n k · y k d                        that matrix times `y`
    mixCols x y k d = Σ_n gram x y n k · x n d                        its transpose times `x`
    rowNorm r γ β d = (r d − μ) · rsqrt (v + ε) · γ d + β d           a row normalised, with mean μ = (Σ_e r e) / 256 and
                                                                       variance v = (Σ_e (r e − μ)²) / 256

  The first result's row `n` is row `n` of `x` followed by the normalised row `n` of `mixRows` (length 512); the second
  result's row `k` is row `k` of `y` followed by the normalised row `k` of `mixCols`. The constants `c = 2⁻⁴`, `lo = −10`,
  `hi = 10`, `256` and `ε` stay the binary words both programs spell them with: the same word on both sides is never
  evaluated. No law of the extended reals is needed beyond reading each sum as a sum: the two programs apply the same
  operations in the same order at every index, and differ only in how many pairs they treat at once.
-/
import Idealize.ShloMosaic.PureOps.Ideal
import Idealize.ShloMosaic.PureOps.Ideal.Laws

noncomputable section

namespace Cert.PairMix

open Idealize.ShloMosaic

/-- The scale of the inner products, the word of `2⁻⁴`. -/
abbrev cScale : EReal := Ideal.ofBits .f32 0x3D800000#32
/-- The lower clip bound, the word of `−10`. -/
abbrev cLo : EReal := Ideal.ofBits .f32 0xC1200000#32
/-- The upper clip bound, the word of `10`. -/
abbrev cHi : EReal := Ideal.ofBits .f32 0x41200000#32
/-- The row length as a float, the word of `256`. -/
abbrev cWidth : EReal := Ideal.ofBits .f32 0x43800000#32
/-- The variance's offset `ε`. -/
abbrev cEps : EReal := Ideal.ofBits .f32 0x3727C5AC#32

/-- The clipped, scaled inner product of row `n` of `x` with row `k` of `y`. -/
def gram (x : Fin 64 → Fin 256 → EReal) (y : Fin 128 → Fin 256 → EReal) (n : Fin 64) (k : Fin 128) : EReal :=
  min cHi (max cLo ((∑ d : Fin 256, x n d * y k d) * cScale))

/-- `gram x y` times `y`: entry `(n, d)`. -/
def mixRows (x : Fin 64 → Fin 256 → EReal) (y : Fin 128 → Fin 256 → EReal) (n : Fin 64) (d : Fin 256) : EReal :=
  ∑ k : Fin 128, gram x y n k * y k d

/-- The transpose of `gram x y` times `x`: entry `(k, d)`. -/
def mixCols (x : Fin 64 → Fin 256 → EReal) (y : Fin 128 → Fin 256 → EReal) (k : Fin 128) (d : Fin 256) : EReal :=
  ∑ n : Fin 64, gram x y n k * x n d

/-- The mean of a row of length 256. -/
def rowMean (r : Fin 256 → EReal) : EReal := Ideal.div (∑ e : Fin 256, r e) cWidth

/-- The mean of the squared deviations of a row from its mean. -/
def rowVar (r : Fin 256 → EReal) : EReal :=
  Ideal.div (∑ e : Fin 256, (r e - rowMean r) * (r e - rowMean r)) cWidth

/-- A row normalised, scaled by `γ` and shifted by `β`. -/
def rowNorm (r γ β : Fin 256 → EReal) (d : Fin 256) : EReal :=
  (r d - rowMean r) * Ideal.rsqrt (rowVar r + cEps) * γ d + β d

/-- Two rows of length 256 laid end to end. -/
def join (u v : Fin 256 → EReal) (j : Fin 512) : EReal :=
  if h : j.val < 256 then u ⟨j.val, h⟩ else v ⟨j.val - 256, by have := j.isLt; omega⟩

theorem join_left (u v : Fin 256 → EReal) (j : Fin 512) (d : Fin 256) (hj : j.val = d.val) : join u v j = u d := by
  unfold join
  rw [dif_pos (by have := d.isLt; omega)]
  exact congrArg u (Fin.ext hj)

theorem join_right (u v : Fin 256 → EReal) (j : Fin 512) (d : Fin 256) (hj : j.val = 256 + d.val) : join u v j = v d := by
  unfold join
  rw [dif_neg (by omega)]
  exact congrArg v (Fin.ext (by show j.val - 256 = d.val; omega))

/-- Row `n` of the first result: row `n` of `x`, then the normalised row `n` of `mixRows`. -/
def firstRow (x : Fin 64 → Fin 256 → EReal) (y : Fin 128 → Fin 256 → EReal) (γ β : Fin 256 → EReal) (n : Fin 64) : Fin 512 → EReal :=
  join (x n) (rowNorm (mixRows x y n) γ β)

/-- Row `k` of the second result: row `k` of `y`, then the normalised row `k` of `mixCols`. -/
def secondRow (x : Fin 64 → Fin 256 → EReal) (y : Fin 128 → Fin 256 → EReal) (γ β : Fin 256 → EReal) (k : Fin 128) : Fin 512 → EReal :=
  join (y k) (rowNorm (mixCols x y k) γ β)

end Cert.PairMix

end
-- ==== Proof.PairMixArrays.lean ====
/-
  The two results for 1024 pairs of matrices at once. The inputs are arrays `h1 : [1024, 64, 256]` and
  `h2 : [1024, 128, 256]`; pair `b` is `(h1 b, h2 b)`, and the results' rows at `b` are the rows `firstRow` and
  `secondRow` of that one pair: nothing is shared between pairs but the scale `γ` and the shift `β`.
-/
import proofs.«137363_j29265907155226_1_alg».proof.Proof.PairMix
import Idealize.ShloMosaic.Lib.ValueIdx

noncomputable section

namespace Cert.PairMix

open Idealize.ShloMosaic Idealize.ShloMosaic.ValueIdx

/-- The first result as one array `[1024, 64, 512]`: entry `(b, n, j)` is entry `j` of `firstRow` of pair `b` at row `n`. -/
def wholeFirst (h1 : (⟨3, ![1024, 64, 256]⟩ : Shape).Idx → EReal) (h2 : (⟨3, ![1024, 128, 256]⟩ : Shape).Idx → EReal)
    (γ β : (⟨1, ![256]⟩ : Shape).Idx → EReal) : (⟨3, ![1024, 64, 512]⟩ : Shape).Idx → EReal :=
  fun i => firstRow (fun n d => h1 (ix3 (i 0) n d)) (fun k d => h2 (ix3 (i 0) k d)) (fun d => γ (ix1 d)) (fun d => β (ix1 d)) (i 1) (i 2)

/-- The second result as one array `[1024, 128, 512]`. -/
def wholeSecond (h1 : (⟨3, ![1024, 64, 256]⟩ : Shape).Idx → EReal) (h2 : (⟨3, ![1024, 128, 256]⟩ : Shape).Idx → EReal)
    (γ β : (⟨1, ![256]⟩ : Shape).Idx → EReal) : (⟨3, ![1024, 128, 512]⟩ : Shape).Idx → EReal :=
  fun i => secondRow (fun n d => h1 (ix3 (i 0) n d)) (fun k d => h2 (ix3 (i 0) k d)) (fun d => γ (ix1 d)) (fun d => β (ix1 d)) (i 1) (i 2)

theorem wholeFirst_apply (h1 : (⟨3, ![1024, 64, 256]⟩ : Shape).Idx → EReal) (h2 : (⟨3, ![1024, 128, 256]⟩ : Shape).Idx → EReal)
    (γ β : (⟨1, ![256]⟩ : Shape).Idx → EReal) (b : Fin 1024) (n : Fin 64) (j : Fin 512) :
    wholeFirst h1 h2 γ β (ix3 b n j)
      = firstRow (fun n d => h1 (ix3 b n d)) (fun k d => h2 (ix3 b k d)) (fun d => γ (ix1 d)) (fun d => β (ix1 d)) n j := rfl

theorem wholeSecond_apply (h1 : (⟨3, ![1024, 64, 256]⟩ : Shape).Idx → EReal) (h2 : (⟨3, ![1024, 128, 256]⟩ : Shape).Idx → EReal)
    (γ β : (⟨1, ![256]⟩ : Shape).Idx → EReal) (b : Fin 1024) (k : Fin 128) (j : Fin 512) :
    wholeSecond h1 h2 γ β (ix3 b k j)
      = secondRow (fun n d => h1 (ix3 b n d)) (fun k d => h2 (ix3 b k d)) (fun d => γ (ix1 d)) (fun d => β (ix1 d)) k j := rfl

end Cert.PairMix

end
-- ==== Proof.BlockValue.lean ====
/-
  One grid step's two computed blocks, read at an index over the extended reals.

  The step loads a block `x0` of 16 matrices with 64 rows, a block `x1` of 16 matrices with 128 rows (every row of
  length 256), a scale vector and a shift vector of length 256. For each pair `p` it forms three products with one
  batch axis: the inner products of the rows of `x0` with the rows of `x1` (scaled and clipped: `gram`), that
  matrix times `x1` (`mixRows`), and its transpose times `x0` (`mixCols`); then it normalises every row of the last
  two (`rowNorm`). Over the extended reals a change of format is the identity and a cast to the same shape does
  nothing, so each product read at an index is a sum over the contracted axis of products of the operands' entries:
  the contraction index, a one-axis multi-index, is exchanged for its coordinate, and the operands' indices are named
  coordinate by coordinate. The normalisation is the same chain of operations on `[16, 64, 256]` and on
  `[16, 128, 256]`: it is read once, for `[16, R, 256]` with any `R`: a sum over the last axis is the sum of the
  row, a `[16, R]` array viewed as `[16, R, 1]` and spread along the last axis reads `(p, r)` at every `(p, r, d)`,
  and a vector of length 256 viewed as `[1, 1, 256]` and spread over the rows reads its entry `d`.
-/
import proofs.«137363_j29265907155226_1_alg».proof.Proof.Gen.KernelIdeal.Skeleton
import proofs.«137363_j29265907155226_1_alg».proof.Proof.PairMix
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.PairMix

/-! ## The first product: rows of the left block against rows of the right block -/

theorem lhs_gram_0 (i : S16x64x128.Idx) (q : dot_S16x64x256_S16x128x256_S16x64x128_2_2_1_1_0_0.contr.Idx) :
    (dot_S16x64x256_S16x128x256_S16x64x128_2_2_1_1_0_0.lhsIdx i q 0).val = (i 0).val := by
  unfold DotDims.lhsIdx
  rw [dif_pos (show (0 : Fin S16x64x256.rank) ∈ dot_S16x64x256_S16x128x256_S16x64x128_2_2_1_1_0_0.lhsBatch by decide)]
  rfl
theorem lhs_gram_1 (i : S16x64x128.Idx) (q : dot_S16x64x256_S16x128x256_S16x64x128_2_2_1_1_0_0.contr.Idx) :
    (dot_S16x64x256_S16x128x256_S16x64x128_2_2_1_1_0_0.lhsIdx i q 1).val = (i 1).val := by
  unfold DotDims.lhsIdx
  rw [dif_neg (show ¬(1 : Fin S16x64x256.rank) ∈ dot_S16x64x256_S16x128x256_S16x64x128_2_2_1_1_0_0.lhsBatch by decide), dif_pos (show (1 : Fin S16x64x256.rank) ∈ dot_S16x64x256_S16x128x256_S16x64x128_2_2_1_1_0_0.lhsNonContracting by decide)]
  rfl
theorem lhs_gram_2 (i : S16x64x128.Idx) (q : dot_S16x64x256_S16x128x256_S16x64x128_2_2_1_1_0_0.contr.Idx) :
    (dot_S16x64x256_S16x128x256_S16x64x128_2_2_1_1_0_0.lhsIdx i q 2).val = (q ⟨0, by decide⟩).val :=
  dot_S16x64x256_S16x128x256_S16x64x128_2_2_1_1_0_0.lhsIdx_val_of_single rfl i q
theorem rhs_gram_0 (i : S16x64x128.Idx) (q : dot_S16x64x256_S16x128x256_S16x64x128_2_2_1_1_0_0.contr.Idx) :
    (dot_S16x64x256_S16x128x256_S16x64x128_2_2_1_1_0_0.rhsIdx i q 0).val = (i 0).val := by
  unfold DotDims.rhsIdx
  rw [dif_pos (show (0 : Fin S16x128x256.rank) ∈ dot_S16x64x256_S16x128x256_S16x64x128_2_2_1_1_0_0.rhsBatch by decide)]
  rfl
theorem rhs_gram_1 (i : S16x64x128.Idx) (q : dot_S16x64x256_S16x128x256_S16x64x128_2_2_1_1_0_0.contr.Idx) :
    (dot_S16x64x256_S16x128x256_S16x64x128_2_2_1_1_0_0.rhsIdx i q 1).val = (i 2).val := by
  unfold DotDims.rhsIdx
  rw [dif_neg (show ¬(1 : Fin S16x128x256.rank) ∈ dot_S16x64x256_S16x128x256_S16x64x128_2_2_1_1_0_0.rhsBatch by decide), dif_pos (show (1 : Fin S16x128x256.rank) ∈ dot_S16x64x256_S16x128x256_S16x64x128_2_2_1_1_0_0.rhsNonContracting by decide)]
  rfl
theorem rhs_gram_2 (i : S16x64x128.Idx) (q : dot_S16x64x256_S16x128x256_S16x64x128_2_2_1_1_0_0.contr.Idx) :
    (dot_S16x64x256_S16x128x256_S16x64x128_2_2_1_1_0_0.rhsIdx i q 2).val = (q ⟨0, by decide⟩).val :=
  dot_S16x64x256_S16x128x256_S16x64x128_2_2_1_1_0_0.rhsIdx_val_of_single rfl i q

/-- The first product at `(p, n, k)`: the inner product of row `n` of the left block with row `k` of the right one. -/
theorem dotRows_apply (a : FVec Ideal S16x64x256 .bf16) (b : FVec Ideal S16x128x256 .bf16)
    (p : Fin 16) (n : Fin 64) (k : Fin 128) :
    matmul dot_S16x64x256_S16x128x256_S16x64x128_2_2_1_1_0_0 none a b (constant (F := Ideal) S16x64x128 .f32 0x00000000#32) (ix3 p n k)
      = ∑ d : Fin 256, a (ix3 p n d) * b (ix3 p k d) := by
  simp only [matmul]
  rw [Ideal.matmul_constant_zero_apply, ← Equiv.sum_comp (contrEquiv1 dot_S16x64x256_S16x128x256_S16x64x128_2_2_1_1_0_0 256 rfl rfl).symm]
  refine Finset.sum_congr rfl fun d _ => ?_
  have hd := contrEquiv1_symm_val dot_S16x64x256_S16x128x256_S16x64x128_2_2_1_1_0_0 256 rfl rfl d
  have el : dot_S16x64x256_S16x128x256_S16x64x128_2_2_1_1_0_0.lhsIdx (ix3 p n k) ((contrEquiv1 dot_S16x64x256_S16x128x256_S16x64x128_2_2_1_1_0_0 256 rfl rfl).symm d) = ix3 p n d := funext fun c => Fin.ext (by
    match c with
    | ⟨0, _⟩ => exact lhs_gram_0 _ _
    | ⟨1, _⟩ => exact lhs_gram_1 _ _
    | ⟨2, _⟩ => exact (lhs_gram_2 _ _).trans hd)
  have er : dot_S16x64x256_S16x128x256_S16x64x128_2_2_1_1_0_0.rhsIdx (ix3 p n k) ((contrEquiv1 dot_S16x64x256_S16x128x256_S16x64x128_2_2_1_1_0_0 256 rfl rfl).symm d) = ix3 p k d := funext fun c => Fin.ext (by
    match c with
    | ⟨0, _⟩ => exact rhs_gram_0 _ _
    | ⟨1, _⟩ => exact rhs_gram_1 _ _
    | ⟨2, _⟩ => exact (rhs_gram_2 _ _).trans hd)
  rw [el, er]

/-- At the extended reals the narrowed copy of the left block is the block itself. -/
theorem narrowLeft_apply (x0 : Vec Ideal S16x64x256 .f32) (i : S16x64x256.Idx) : k0_pay5 (F := Ideal) x0 i = x0 i := by
  unfold k0_pay5 k0_pay3
  exact congrFun (shapeCast_self x0 _) i

/-- At the extended reals the narrowed copy of the right block is the block itself. -/
theorem narrowRight_apply (x1 : Vec Ideal S16x128x256 .f32) (i : S16x128x256.Idx) : k0_pay6 (F := Ideal) x1 i = x1 i := by
  unfold k0_pay6 k0_pay4
  exact congrFun (shapeCast_self x1 _) i

/-- The clipped, scaled score at `(p, n, k)` is `gram` of pair `p`'s two matrices. -/
theorem score_apply (x0 : Vec Ideal S16x64x256 .f32) (x1 : Vec Ideal S16x128x256 .f32) (p : Fin 16) (n : Fin 64) (k : Fin 128) :
    k0_pay7 (F := Ideal) x0 x1 (ix3 p n k) = gram (fun n d => x0 (ix3 p n d)) (fun k d => x1 (ix3 p k d)) n k := by
  unfold k0_pay7 gram
  show min (Ideal.ofBits .f32 0x41200000#32) (max (Ideal.ofBits .f32 0xC1200000#32)
    (matmul dot_S16x64x256_S16x128x256_S16x64x128_2_2_1_1_0_0 none (k0_pay5 (F := Ideal) x0) (k0_pay6 (F := Ideal) x1) (constant (F := Ideal) S16x64x128 .f32 0x00000000#32) (ix3 p n k)
      * Ideal.ofBits .f32 0x3D800000#32)) = _
  rw [dotRows_apply]
  simp only [narrowLeft_apply, narrowRight_apply]

/-! ## The second product: the scores against the right block -/

theorem lhs_mixRows_0 (i : S16x64x256.Idx) (q : dot_S16x64x128_S16x128x256_S16x64x256_2_1_1_2_0_0.contr.Idx) :
    (dot_S16x64x128_S16x128x256_S16x64x256_2_1_1_2_0_0.lhsIdx i q 0).val = (i 0).val := by
  unfold DotDims.lhsIdx
  rw [dif_pos (show (0 : Fin S16x64x128.rank) ∈ dot_S16x64x128_S16x128x256_S16x64x256_2_1_1_2_0_0.lhsBatch by decide)]
  rfl
theorem lhs_mixRows_1 (i : S16x64x256.Idx) (q : dot_S16x64x128_S16x128x256_S16x64x256_2_1_1_2_0_0.contr.Idx) :
    (dot_S16x64x128_S16x128x256_S16x64x256_2_1_1_2_0_0.lhsIdx i q 1).val = (i 1).val := by
  unfold DotDims.lhsIdx
  rw [dif_neg (show ¬(1 : Fin S16x64x128.rank) ∈ dot_S16x64x128_S16x128x256_S16x64x256_2_1_1_2_0_0.lhsBatch by decide), dif_pos (show (1 : Fin S16x64x128.rank) ∈ dot_S16x64x128_S16x128x256_S16x64x256_2_1_1_2_0_0.lhsNonContracting by decide)]
  rfl
theorem lhs_mixRows_2 (i : S16x64x256.Idx) (q : dot_S16x64x128_S16x128x256_S16x64x256_2_1_1_2_0_0.contr.Idx) :
    (dot_S16x64x128_S16x128x256_S16x64x256_2_1_1_2_0_0.lhsIdx i q 2).val = (q ⟨0, by decide⟩).val :=
  dot_S16x64x128_S16x128x256_S16x64x256_2_1_1_2_0_0.lhsIdx_val_of_single rfl i q
theorem rhs_mixRows_0 (i : S16x64x256.Idx) (q : dot_S16x64x128_S16x128x256_S16x64x256_2_1_1_2_0_0.contr.Idx) :
    (dot_S16x64x128_S16x128x256_S16x64x256_2_1_1_2_0_0.rhsIdx i q 0).val = (i 0).val := by
  unfold DotDims.rhsIdx
  rw [dif_pos (show (0 : Fin S16x128x256.rank) ∈ dot_S16x64x128_S16x128x256_S16x64x256_2_1_1_2_0_0.rhsBatch by decide)]
  rfl
theorem rhs_mixRows_1 (i : S16x64x256.Idx) (q : dot_S16x64x128_S16x128x256_S16x64x256_2_1_1_2_0_0.contr.Idx) :
    (dot_S16x64x128_S16x128x256_S16x64x256_2_1_1_2_0_0.rhsIdx i q 1).val = (q ⟨0, by decide⟩).val :=
  dot_S16x64x128_S16x128x256_S16x64x256_2_1_1_2_0_0.rhsIdx_val_of_single rfl i q
theorem rhs_mixRows_2 (i : S16x64x256.Idx) (q : dot_S16x64x128_S16x128x256_S16x64x256_2_1_1_2_0_0.contr.Idx) :
    (dot_S16x64x128_S16x128x256_S16x64x256_2_1_1_2_0_0.rhsIdx i q 2).val = (i 2).val := by
  unfold DotDims.rhsIdx
  rw [dif_neg (show ¬(2 : Fin S16x128x256.rank) ∈ dot_S16x64x128_S16x128x256_S16x64x256_2_1_1_2_0_0.rhsBatch by decide), dif_pos (show (2 : Fin S16x128x256.rank) ∈ dot_S16x64x128_S16x128x256_S16x64x256_2_1_1_2_0_0.rhsNonContracting by decide)]
  rfl

/-- The second product at `(p, n, d)`: row `n` of the left operand against column `d` of the right one. -/
theorem dotMixRows_apply (a : FVec Ideal S16x64x128 .bf16) (b : FVec Ideal S16x128x256 .bf16)
    (p : Fin 16) (n : Fin 64) (d : Fin 256) :
    matmul dot_S16x64x128_S16x128x256_S16x64x256_2_1_1_2_0_0 none a b (constant (F := Ideal) S16x64x256 .f32 0x00000000#32) (ix3 p n d)
      = ∑ k : Fin 128, a (ix3 p n k) * b (ix3 p k d) := by
  simp only [matmul]
  rw [Ideal.matmul_constant_zero_apply, ← Equiv.sum_comp (contrEquiv1 dot_S16x64x128_S16x128x256_S16x64x256_2_1_1_2_0_0 128 rfl rfl).symm]
  refine Finset.sum_congr rfl fun k _ => ?_
  have hk := contrEquiv1_symm_val dot_S16x64x128_S16x128x256_S16x64x256_2_1_1_2_0_0 128 rfl rfl k
  have el : dot_S16x64x128_S16x128x256_S16x64x256_2_1_1_2_0_0.lhsIdx (ix3 p n d) ((contrEquiv1 dot_S16x64x128_S16x128x256_S16x64x256_2_1_1_2_0_0 128 rfl rfl).symm k) = ix3 p n k := funext fun c => Fin.ext (by
    match c with
    | ⟨0, _⟩ => exact lhs_mixRows_0 _ _
    | ⟨1, _⟩ => exact lhs_mixRows_1 _ _
    | ⟨2, _⟩ => exact (lhs_mixRows_2 _ _).trans hk)
  have er : dot_S16x64x128_S16x128x256_S16x64x256_2_1_1_2_0_0.rhsIdx (ix3 p n d) ((contrEquiv1 dot_S16x64x128_S16x128x256_S16x64x256_2_1_1_2_0_0 128 rfl rfl).symm k) = ix3 p k d := funext fun c => Fin.ext (by
    match c with
    | ⟨0, _⟩ => exact rhs_mixRows_0 _ _
    | ⟨1, _⟩ => exact (rhs_mixRows_1 _ _).trans hk
    | ⟨2, _⟩ => exact rhs_mixRows_2 _ _)
  rw [el, er]

/-- The scores times the right block at `(p, n, d)` is `mixRows` of pair `p`'s two matrices. -/
theorem mixRows_apply (x0 : Vec Ideal S16x64x256 .f32) (x1 : Vec Ideal S16x128x256 .f32) (p : Fin 16) (n : Fin 64) (d : Fin 256) :
    matmul dot_S16x64x128_S16x128x256_S16x64x256_2_1_1_2_0_0 none (k0_pay7 (F := Ideal) x0 x1) (k0_pay6 (F := Ideal) x1) (constant (F := Ideal) S16x64x256 .f32 0x00000000#32) (ix3 p n d)
      = mixRows (fun n d => x0 (ix3 p n d)) (fun k d => x1 (ix3 p k d)) n d := by
  rw [dotMixRows_apply]
  unfold mixRows
  refine Finset.sum_congr rfl fun k _ => ?_
  rw [score_apply, narrowRight_apply]

/-! ## The third product: the scores, transposed, against the left block -/

theorem lhs_mixCols_0 (i : S16x128x256.Idx) (q : dot_S16x64x128_S16x64x256_S16x128x256_1_1_2_2_0_0.contr.Idx) :
    (dot_S16x64x128_S16x64x256_S16x128x256_1_1_2_2_0_0.lhsIdx i q 0).val = (i 0).val := by
  unfold DotDims.lhsIdx
  rw [dif_pos (show (0 : Fin S16x64x128.rank) ∈ dot_S16x64x128_S16x64x256_S16x128x256_1_1_2_2_0_0.lhsBatch by decide)]
  rfl
theorem lhs_mixCols_1 (i : S16x128x256.Idx) (q : dot_S16x64x128_S16x64x256_S16x128x256_1_1_2_2_0_0.contr.Idx) :
    (dot_S16x64x128_S16x64x256_S16x128x256_1_1_2_2_0_0.lhsIdx i q 1).val = (q ⟨0, by decide⟩).val :=
  dot_S16x64x128_S16x64x256_S16x128x256_1_1_2_2_0_0.lhsIdx_val_of_single rfl i q
theorem lhs_mixCols_2 (i : S16x128x256.Idx) (q : dot_S16x64x128_S16x64x256_S16x128x256_1_1_2_2_0_0.contr.Idx) :
    (dot_S16x64x128_S16x64x256_S16x128x256_1_1_2_2_0_0.lhsIdx i q 2).val = (i 1).val := by
  unfold DotDims.lhsIdx
  rw [dif_neg (show ¬(2 : Fin S16x64x128.rank) ∈ dot_S16x64x128_S16x64x256_S16x128x256_1_1_2_2_0_0.lhsBatch by decide), dif_pos (show (2 : Fin S16x64x128.rank) ∈ dot_S16x64x128_S16x64x256_S16x128x256_1_1_2_2_0_0.lhsNonContracting by decide)]
  rfl
theorem rhs_mixCols_0 (i : S16x128x256.Idx) (q : dot_S16x64x128_S16x64x256_S16x128x256_1_1_2_2_0_0.contr.Idx) :
    (dot_S16x64x128_S16x64x256_S16x128x256_1_1_2_2_0_0.rhsIdx i q 0).val = (i 0).val := by
  unfold DotDims.rhsIdx
  rw [dif_pos (show (0 : Fin S16x64x256.rank) ∈ dot_S16x64x128_S16x64x256_S16x128x256_1_1_2_2_0_0.rhsBatch by decide)]
  rfl
theorem rhs_mixCols_1 (i : S16x128x256.Idx) (q : dot_S16x64x128_S16x64x256_S16x128x256_1_1_2_2_0_0.contr.Idx) :
    (dot_S16x64x128_S16x64x256_S16x128x256_1_1_2_2_0_0.rhsIdx i q 1).val = (q ⟨0, by decide⟩).val :=
  dot_S16x64x128_S16x64x256_S16x128x256_1_1_2_2_0_0.rhsIdx_val_of_single rfl i q
theorem rhs_mixCols_2 (i : S16x128x256.Idx) (q : dot_S16x64x128_S16x64x256_S16x128x256_1_1_2_2_0_0.contr.Idx) :
    (dot_S16x64x128_S16x64x256_S16x128x256_1_1_2_2_0_0.rhsIdx i q 2).val = (i 2).val := by
  unfold DotDims.rhsIdx
  rw [dif_neg (show ¬(2 : Fin S16x64x256.rank) ∈ dot_S16x64x128_S16x64x256_S16x128x256_1_1_2_2_0_0.rhsBatch by decide), dif_pos (show (2 : Fin S16x64x256.rank) ∈ dot_S16x64x128_S16x64x256_S16x128x256_1_1_2_2_0_0.rhsNonContracting by decide)]
  rfl

/-- The third product at `(p, k, d)`: column `k` of the left operand against column `d` of the right one. -/
theorem dotMixCols_apply (a : FVec Ideal S16x64x128 .bf16) (b : FVec Ideal S16x64x256 .bf16)
    (p : Fin 16) (k : Fin 128) (d : Fin 256) :
    matmul dot_S16x64x128_S16x64x256_S16x128x256_1_1_2_2_0_0 none a b (constant (F := Ideal) S16x128x256 .f32 0x00000000#32) (ix3 p k d)
      = ∑ n : Fin 64, a (ix3 p n k) * b (ix3 p n d) := by
  simp only [matmul]
  rw [Ideal.matmul_constant_zero_apply, ← Equiv.sum_comp (contrEquiv1 dot_S16x64x128_S16x64x256_S16x128x256_1_1_2_2_0_0 64 rfl rfl).symm]
  refine Finset.sum_congr rfl fun n _ => ?_
  have hn := contrEquiv1_symm_val dot_S16x64x128_S16x64x256_S16x128x256_1_1_2_2_0_0 64 rfl rfl n
  have el : dot_S16x64x128_S16x64x256_S16x128x256_1_1_2_2_0_0.lhsIdx (ix3 p k d) ((contrEquiv1 dot_S16x64x128_S16x64x256_S16x128x256_1_1_2_2_0_0 64 rfl rfl).symm n) = ix3 p n k := funext fun c => Fin.ext (by
    match c with
    | ⟨0, _⟩ => exact lhs_mixCols_0 _ _
    | ⟨1, _⟩ => exact (lhs_mixCols_1 _ _).trans hn
    | ⟨2, _⟩ => exact lhs_mixCols_2 _ _)
  have er : dot_S16x64x128_S16x64x256_S16x128x256_1_1_2_2_0_0.rhsIdx (ix3 p k d) ((contrEquiv1 dot_S16x64x128_S16x64x256_S16x128x256_1_1_2_2_0_0 64 rfl rfl).symm n) = ix3 p n d := funext fun c => Fin.ext (by
    match c with
    | ⟨0, _⟩ => exact rhs_mixCols_0 _ _
    | ⟨1, _⟩ => exact (rhs_mixCols_1 _ _).trans hn
    | ⟨2, _⟩ => exact rhs_mixCols_2 _ _)
  rw [el, er]

/-- The transposed scores times the left block at `(p, k, d)` is `mixCols` of pair `p`'s two matrices. -/
theorem mixCols_apply (x0 : Vec Ideal S16x64x256 .f32) (x1 : Vec Ideal S16x128x256 .f32) (p : Fin 16) (k : Fin 128) (d : Fin 256) :
    k0_pay8 (F := Ideal) x0 x1 (ix3 p k d)
      = mixCols (fun n d => x0 (ix3 p n d)) (fun k d => x1 (ix3 p k d)) k d := by
  unfold k0_pay8
  refine (dotMixCols_apply _ _ p k d).trans ?_
  unfold mixCols
  refine Finset.sum_congr rfl fun n _ => ?_
  rw [score_apply, narrowLeft_apply]

/-! ## The normalisation of the rows of a block, for any number `R` of rows per pair -/

section Norm
variable {R : Nat}

/-- The sum over the last axis at `(p, r)` is the sum of row `(p, r)`. -/
theorem laneSum_apply (hred : (⟨3, ![16, R, 256]⟩ : Shape).Reduces [2] ⟨2, ![16, R]⟩)
    (hφ : FKind.Formats .f32) (hacc : (0x00000000#32 : BitVec 32) = FKind.add.neutral .f32 hφ)
    (v : FVec Ideal ⟨3, ![16, R, 256]⟩ .f32) (p : Fin 16) (r : Fin R) :
    multiReduction .add [2] ⟨2, ![16, R]⟩ v 0x00000000#32 hred hφ hacc (ix2 p r) = ∑ e : Fin 256, v (ix3 p r e) := by
  refine (Ideal.multiReduction_add_single v 0x00000000#32 hred hφ hacc (ix2 p r)).trans ?_
  refine Finset.sum_congr rfl fun e _ => ?_
  exact congrArg v (funext fun a => Fin.ext (by match a with | ⟨0, _⟩ => rfl | ⟨1, _⟩ => rfl | ⟨2, _⟩ => rfl))

/-- A `[16, R]` array viewed as `[16, R, 1]` reads `(p, r)` at `(p, r, 0)`. -/
theorem keep_apply (hkeep : (⟨2, ![16, R]⟩ : Shape).ShapeCasts ⟨3, ![16, R, 1]⟩)
    (u : FVec Ideal ⟨2, ![16, R]⟩ .f32) (p : Fin 16) (r : Fin R) (z : Fin 1) :
    shapeCast ⟨3, ![16, R, 1]⟩ u hkeep (ix3 p r z) = u (ix2 p r) := by
  refine shapeCast_apply u hkeep (ix3 p r z) (ix2 p r) ?_
  rw [Shape.rowMajor_val_two, Shape.rowMajor_val_three]
  show p.val * R + r.val = (p.val * R + r.val) * 1 + z.val
  have := z.isLt
  omega

/-- A column `[16, R, 1]` spread along the last axis reads `(p, r, 0)` at every `(p, r, d)`. -/
theorem spread_apply (hlane : (⟨3, ![16, R, 1]⟩ : Shape).Broadcasts ⟨3, ![16, R, 256]⟩)
    (w : FVec Ideal ⟨3, ![16, R, 1]⟩ .f32) (p : Fin 16) (r : Fin R) (d : Fin 256) :
    broadcastTo ⟨3, ![16, R, 256]⟩ w hlane (ix3 p r d) = w (ix3 p r 0) := by
  refine broadcastTo_apply w hlane (ix3 p r d) (ix3 p r 0) fun a => ?_
  match a with
  | ⟨0, _⟩ => show p.val = if (16 : Nat) = 1 then 0 else p.val; rw [if_neg (by decide)]
  | ⟨1, _⟩ =>
    show r.val = if R = 1 then 0 else r.val
    have := r.isLt
    split <;> omega
  | ⟨2, _⟩ => show 0 = if (1 : Nat) = 1 then 0 else d.val; rw [if_pos rfl]

/-- A vector of length 256 viewed as `[1, 1, 256]` and spread over the rows reads its entry `d` at every `(p, r, d)`. -/
theorem rowVec_apply (hvec : S256.ShapeCasts S1x1x256) (hrow : S1x1x256.Broadcasts ⟨3, ![16, R, 256]⟩)
    (g : Vec Ideal S256 .f32) (p : Fin 16) (r : Fin R) (d : Fin 256) :
    broadcastTo ⟨3, ![16, R, 256]⟩ (shapeCast S1x1x256 g hvec) hrow (ix3 p r d) = g (ix1 d) := by
  refine (broadcastTo_apply (shapeCast S1x1x256 g hvec) hrow (ix3 p r d) (ix3 0 0 d) fun a => ?_).trans ?_
  · match a with
    | ⟨0, _⟩ => show 0 = if (1 : Nat) = 1 then 0 else p.val; rw [if_pos rfl]
    | ⟨1, _⟩ => show 0 = if (1 : Nat) = 1 then 0 else r.val; rw [if_pos rfl]
    | ⟨2, _⟩ => show d.val = if (256 : Nat) = 1 then 0 else d.val; rw [if_neg (by decide)]
  · refine shapeCast_apply g hvec (ix3 0 0 d) (ix1 d) ?_
    rw [Shape.rowMajor_val_one, Shape.rowMajor_val_three]
    show d.val = (0 * 1 + 0) * 256 + d.val
    omega

end Norm

section NormBlock
variable {R : Nat}
  (hred : (⟨3, ![16, R, 256]⟩ : Shape).Reduces [2] ⟨2, ![16, R]⟩)
  (hkeep : (⟨2, ![16, R]⟩ : Shape).ShapeCasts ⟨3, ![16, R, 1]⟩)
  (hlane : (⟨3, ![16, R, 1]⟩ : Shape).Broadcasts ⟨3, ![16, R, 256]⟩)
  (hvec : S256.ShapeCasts S1x1x256) (hrow : S1x1x256.Broadcasts ⟨3, ![16, R, 256]⟩)

/-- The mean over the last axis of every row of a block, kept as a column of shape `[16, R, 1]`. -/
def meanCol (v : FVec Ideal ⟨3, ![16, R, 256]⟩ .f32) : FVec Ideal ⟨3, ![16, R, 1]⟩ .f32 :=
  divf (shapeCast ⟨3, ![16, R, 1]⟩ (multiReduction .add [2] ⟨2, ![16, R]⟩ v 0x00000000#32 hred (.inl rfl) rfl) hkeep)
    (broadcast ⟨3, ![16, R, 1]⟩ (Scalar.ofBits .f32 0x43800000#32))

/-- The column of means at `(p, r, z)` is the sum of row `(p, r)` divided by the row length. -/
theorem meanCol_apply (v : FVec Ideal ⟨3, ![16, R, 256]⟩ .f32) (p : Fin 16) (r : Fin R) (z : Fin 1) :
    meanCol hred hkeep v (ix3 p r z) = Ideal.div (∑ e : Fin 256, v (ix3 p r e)) cWidth := by
  unfold meanCol
  show Ideal.div (shapeCast ⟨3, ![16, R, 1]⟩ (multiReduction .add [2] ⟨2, ![16, R]⟩ v 0x00000000#32 hred (.inl rfl) rfl) hkeep (ix3 p r z)) cWidth = _
  exact congrArg (fun t => Ideal.div t cWidth) ((keep_apply hkeep _ p r z).trans (laneSum_apply hred _ _ v p r))

/-- Every row of a block less its mean. -/
def centred (v : FVec Ideal ⟨3, ![16, R, 256]⟩ .f32) : FVec Ideal ⟨3, ![16, R, 256]⟩ .f32 :=
  subf v (broadcastTo ⟨3, ![16, R, 256]⟩ (meanCol hred hkeep v) hlane)

theorem centred_apply (v : FVec Ideal ⟨3, ![16, R, 256]⟩ .f32) (p : Fin 16) (r : Fin R) (e : Fin 256) :
    centred hred hkeep hlane v (ix3 p r e) = v (ix3 p r e) - rowMean (fun e => v (ix3 p r e)) := by
  unfold centred
  show v (ix3 p r e) - broadcastTo ⟨3, ![16, R, 256]⟩ (meanCol hred hkeep v) hlane (ix3 p r e) = _
  rw [spread_apply, meanCol_apply]
  rfl

/-- The reciprocal square root of every row's variance plus `ε`, as a column. -/
def invDev (v : FVec Ideal ⟨3, ![16, R, 256]⟩ .f32) : FVec Ideal ⟨3, ![16, R, 1]⟩ .f32 :=
  rsqrt (addf (meanCol hred hkeep (mulf (centred hred hkeep hlane v) (centred hred hkeep hlane v)))
    (broadcast ⟨3, ![16, R, 1]⟩ (Scalar.ofBits .f32 0x3727C5AC#32)))

theorem invDev_apply (v : FVec Ideal ⟨3, ![16, R, 256]⟩ .f32) (p : Fin 16) (r : Fin R) (z : Fin 1) :
    invDev hred hkeep hlane v (ix3 p r z) = Ideal.rsqrt (rowVar (fun e => v (ix3 p r e)) + cEps) := by
  unfold invDev
  show Ideal.rsqrt (meanCol hred hkeep (mulf (centred hred hkeep hlane v) (centred hred hkeep hlane v)) (ix3 p r z) + cEps) = _
  rw [meanCol_apply]
  unfold rowVar
  refine congrArg (fun t => Ideal.rsqrt (Ideal.div t cWidth + cEps)) (Finset.sum_congr rfl fun e _ => ?_)
  show centred hred hkeep hlane v (ix3 p r e) * centred hred hkeep hlane v (ix3 p r e) = _
  rw [centred_apply]

/-- Every row of a block normalised, scaled by `g` and shifted by `b`. -/
def normBlock (v : FVec Ideal ⟨3, ![16, R, 256]⟩ .f32) (g b : Vec Ideal S256 .f32) : FVec Ideal ⟨3, ![16, R, 256]⟩ .f32 :=
  addf (mulf (mulf (centred hred hkeep hlane v) (broadcastTo ⟨3, ![16, R, 256]⟩ (invDev hred hkeep hlane v) hlane))
      (broadcastTo ⟨3, ![16, R, 256]⟩ (shapeCast S1x1x256 g hvec) hrow))
    (broadcastTo ⟨3, ![16, R, 256]⟩ (shapeCast S1x1x256 b hvec) hrow)

/-- The normalised block at `(p, r, d)` is `rowNorm` of row `(p, r)` at `d`. -/
theorem normBlock_apply (v : FVec Ideal ⟨3, ![16, R, 256]⟩ .f32) (g b : Vec Ideal S256 .f32) (p : Fin 16) (r : Fin R) (d : Fin 256) :
    normBlock hred hkeep hlane hvec hrow v g b (ix3 p r d)
      = rowNorm (fun e => v (ix3 p r e)) (fun e => g (ix1 e)) (fun e => b (ix1 e)) d := by
  unfold normBlock
  show centred hred hkeep hlane v (ix3 p r d) * broadcastTo ⟨3, ![16, R, 256]⟩ (invDev hred hkeep hlane v) hlane (ix3 p r d)
      * broadcastTo ⟨3, ![16, R, 256]⟩ (shapeCast S1x1x256 g hvec) hrow (ix3 p r d)
      + broadcastTo ⟨3, ![16, R, 256]⟩ (shapeCast S1x1x256 b hvec) hrow (ix3 p r d) = _
  rw [centred_apply, spread_apply, invDev_apply, rowVec_apply, rowVec_apply]
  rfl

end NormBlock

/-! ## The two stored blocks -/

theorem normRows_apply (x0 : Vec Ideal S16x64x256 .f32) (x1 : Vec Ideal S16x128x256 .f32) (x2 x3 : Vec Ideal S256 .f32)
    (p : Fin 16) (n : Fin 64) (d : Fin 256) :
    k0_pay1 (F := Ideal) (k0_pay9 x0 x1 x2) (k0_pay10 x3) (ix3 p n d)
      = rowNorm (mixRows (fun n d => x0 (ix3 p n d)) (fun k d => x1 (ix3 p k d)) n) (fun d => x2 (ix1 d)) (fun d => x3 (ix1 d)) d := by
  have hb : k0_pay1 (F := Ideal) (k0_pay9 x0 x1 x2) (k0_pay10 x3)
      = normBlock (R := 64) Facts₀.reduces_S16x64x256_S16x64 Facts₀.shapeCasts_S16x64_S16x64x1 Facts₀.broadcasts_S16x64x1_S16x64x256
          Facts₀.shapeCasts_S256_S1x1x256 Facts₀.broadcasts_S1x1x256_S16x64x256
          (matmul dot_S16x64x128_S16x128x256_S16x64x256_2_1_1_2_0_0 none (k0_pay7 (F := Ideal) x0 x1) (k0_pay6 (F := Ideal) x1) (constant (F := Ideal) S16x64x256 .f32 0x00000000#32))
          x2 x3 := rfl
  rw [hb, normBlock_apply]
  simp only [mixRows_apply]

theorem normCols_apply (x0 : Vec Ideal S16x64x256 .f32) (x1 : Vec Ideal S16x128x256 .f32) (x2 x3 : Vec Ideal S256 .f32)
    (p : Fin 16) (k : Fin 128) (d : Fin 256) :
    k0_pay2 (F := Ideal) x2 x3 (k0_pay8 x0 x1) (ix3 p k d)
      = rowNorm (mixCols (fun n d => x0 (ix3 p n d)) (fun k d => x1 (ix3 p k d)) k) (fun d => x2 (ix1 d)) (fun d => x3 (ix1 d)) d := by
  have hb : k0_pay2 (F := Ideal) x2 x3 (k0_pay8 x0 x1)
      = normBlock (R := 128) Facts₀.reduces_S16x128x256_S16x128 Facts₀.shapeCasts_S16x128_S16x128x1 Facts₀.broadcasts_S16x128x1_S16x128x256
          Facts₀.shapeCasts_S256_S1x1x256 Facts₀.broadcasts_S1x1x256_S16x128x256
          (k0_pay8 (F := Ideal) x0 x1) x2 x3 := rfl
  rw [hb, normBlock_apply]
  simp only [mixCols_apply]

end Cert.KernelIdeal.BlockValue

end
-- ==== Proof.BlockOut.lean ====
/-
  What the kernel's body leaves in its two output blocks, entry by entry. Each output block of 16 pairs is written by two
  stores that tile its rows by halves: columns 0 … 255 receive the input block unchanged, columns 256 … 511 the normalised
  product. So row `n` of pair `p` of the first block is the specification's `firstRow` of that pair's two input matrices, and
  likewise `secondRow` for the second block: an index in the left half lies outside the later store and under the earlier
  one, an index in the right half under the later one.
-/
import proofs.«137363_j29265907155226_1_alg».proof.Proof.Gen.KernelIdeal.Frame
import proofs.«137363_j29265907155226_1_alg».proof.Proof.PairMix
import proofs.«137363_j29265907155226_1_alg».proof.Proof.BlockValue
import Idealize.ShloMosaic.Lib.ValueIdx
import Idealize.ShloMosaic.Lib.Pipeline.Value

set_option maxRecDepth 16384

noncomputable section

namespace Cert.KernelIdeal.BlockOut

open Cert.KernelIdeal Cert.KernelIdeal.Gen Idealize.ShloMosaic Idealize.ShloMosaic.ValueIdx Cert.PairMix

theorem zeros3 : (![0, 0, 0] : Fin 3 → Nat) = fun _ => 0 := funext fun a => by fin_cases a <;> rfl
theorem zeros1 : (![0] : Fin 1 → Nat) = fun _ => 0 := funext fun a => by fin_cases a <;> rfl

/-- The left half of a row of the first output block lies under the store at column 0. -/
theorem left4_emb (p : Fin 16) (n : Fin 64) (j : Fin 512) (hj : j.val < 256) :
    (ix3 p n j : S16x64x512.Idx) = r0_3.emb (ix3 p n ⟨j.val, hj⟩) :=
  funext fun a => Fin.ext (by
    match a with
    | ⟨0, _⟩ => show p.val = 0 + 1 * p.val; omega
    | ⟨1, _⟩ => show n.val = 0 + 1 * n.val; omega
    | ⟨2, _⟩ => show j.val = 0 + 1 * j.val; omega)

/-- The right half lies under the store at column 256. -/
theorem right4_emb (p : Fin 16) (n : Fin 64) (j : Fin 512) (hj : ¬ j.val < 256) :
    (ix3 p n j : S16x64x512.Idx) = r0_4.emb (ix3 p n ⟨j.val - 256, by have := j.isLt; omega⟩) :=
  funext fun a => Fin.ext (by
    match a with
    | ⟨0, _⟩ => show p.val = 0 + 1 * p.val; omega
    | ⟨1, _⟩ => show n.val = 0 + 1 * n.val; omega
    | ⟨2, _⟩ => show j.val = 256 + 1 * (j.val - 256); omega)

theorem left4_not_mem (p : Fin 16) (n : Fin 64) (j : Fin 512) (hj : j.val < 256) :
    (ix3 p n j : S16x64x512.Idx) ∉ r0_4.set := by
  intro hm
  have h := Rect.mem_set_unit.mp hm
  have h2 : (256 : Nat) ≤ ((ix3 p n j : S16x64x512.Idx) (2 : Fin 3)).val := (h (2 : Fin 3)).1
  have e : ((ix3 p n j : S16x64x512.Idx) (2 : Fin 3)).val = j.val := rfl
  omega

/-- Two stores that tile the first output block by halves of its rows: the canonical contents at a left-half index are the
    store at column 0's payload, at a right-half index the store at column 256's. -/
theorem canon4_left (q0 q1 : Vec Ideal S16x64x256 .f32) (p : Fin 16) (n : Fin 64) (j : Fin 512) (hj : j.val < 256) :
    View.canon ([⟨r0_4, q0⟩, ⟨r0_3, q1⟩] : List (View.Piece (Elt Ideal) S16x64x512 .f32)) (ix3 p n j) = q1 (ix3 p n ⟨j.val, hj⟩) := by
  rw [View.canon_cons_of_not_mem (⟨r0_4, q0⟩ : View.Piece (Elt Ideal) S16x64x512 .f32) [⟨r0_3, q1⟩] (left4_not_mem p n j hj),
    left4_emb p n j hj]
  exact View.canon_cons_emb r0_3 q1 [] _

theorem canon4_right (q0 q1 : Vec Ideal S16x64x256 .f32) (p : Fin 16) (n : Fin 64) (j : Fin 512) (hj : ¬ j.val < 256) :
    View.canon ([⟨r0_4, q0⟩, ⟨r0_3, q1⟩] : List (View.Piece (Elt Ideal) S16x64x512 .f32)) (ix3 p n j)
      = q0 (ix3 p n ⟨j.val - 256, by have := j.isLt; omega⟩) := by
  rw [right4_emb p n j hj]
  exact View.canon_cons_emb r0_4 q0 [⟨r0_3, q1⟩] _

/-- Row `n` of pair `p` of the first output block: the row of `x0`, then the normalised row of the mixed rows. -/
theorem out0_4_apply (x0 : Vec Ideal S16x64x256 .f32) (x1 : Vec Ideal S16x128x256 .f32) (x2 x3 : Vec Ideal S256 .f32)
    (p : Fin 16) (n : Fin 64) (j : Fin 512) :
    out0_4 (F := Ideal) x0 x1 x2 x3 (ix3 p n j)
      = firstRow (fun n d => x0 (ix3 p n d)) (fun k d => x1 (ix3 p k d)) (fun d => x2 (ix1 d)) (fun d => x3 (ix1 d)) n j := by
  unfold out0_4 firstRow
  simp only [View.ld_unit_zero (S := S16x64x256) zeros3, View.ld_unit_zero (S := S16x128x256) zeros3, View.ld_unit_zero (S := S256) zeros1]
  by_cases hj : j.val < 256
  · refine (canon4_left (k0_pay1 (k0_pay9 x0 x1 x2) (k0_pay10 x3)) (k0_pay3 x0) p n j hj).trans ?_
    rw [join_left _ _ j ⟨j.val, hj⟩ rfl]
    unfold k0_pay3
    rw [shapeCast_self]
  · refine (canon4_right (k0_pay1 (k0_pay9 x0 x1 x2) (k0_pay10 x3)) (k0_pay3 x0) p n j hj).trans ?_
    rw [BlockValue.normRows_apply,
      join_right _ _ j ⟨j.val - 256, by have := j.isLt; omega⟩ (by show j.val = 256 + (j.val - 256); omega)]

/-- The same for the second output block, whose rows are 128 per pair. -/
theorem left5_emb (p : Fin 16) (k : Fin 128) (j : Fin 512) (hj : j.val < 256) :
    (ix3 p k j : S16x128x512.Idx) = r0_5.emb (ix3 p k ⟨j.val, hj⟩) :=
  funext fun a => Fin.ext (by
    match a with
    | ⟨0, _⟩ => show p.val = 0 + 1 * p.val; omega
    | ⟨1, _⟩ => show k.val = 0 + 1 * k.val; omega
    | ⟨2, _⟩ => show j.val = 0 + 1 * j.val; omega)

theorem right5_emb (p : Fin 16) (k : Fin 128) (j : Fin 512) (hj : ¬ j.val < 256) :
    (ix3 p k j : S16x128x512.Idx) = r0_6.emb (ix3 p k ⟨j.val - 256, by have := j.isLt; omega⟩) :=
  funext fun a => Fin.ext (by
    match a with
    | ⟨0, _⟩ => show p.val = 0 + 1 * p.val; omega
    | ⟨1, _⟩ => show k.val = 0 + 1 * k.val; omega
    | ⟨2, _⟩ => show j.val = 256 + 1 * (j.val - 256); omega)

theorem left5_not_mem (p : Fin 16) (k : Fin 128) (j : Fin 512) (hj : j.val < 256) :
    (ix3 p k j : S16x128x512.Idx) ∉ r0_6.set := by
  intro hm
  have h := Rect.mem_set_unit.mp hm
  have h2 : (256 : Nat) ≤ ((ix3 p k j : S16x128x512.Idx) (2 : Fin 3)).val := (h (2 : Fin 3)).1
  have e : ((ix3 p k j : S16x128x512.Idx) (2 : Fin 3)).val = j.val := rfl
  omega

theorem canon5_left (q0 q1 : Vec Ideal S16x128x256 .f32) (p : Fin 16) (k : Fin 128) (j : Fin 512) (hj : j.val < 256) :
    View.canon ([⟨r0_6, q0⟩, ⟨r0_5, q1⟩] : List (View.Piece (Elt Ideal) S16x128x512 .f32)) (ix3 p k j) = q1 (ix3 p k ⟨j.val, hj⟩) := by
  rw [View.canon_cons_of_not_mem (⟨r0_6, q0⟩ : View.Piece (Elt Ideal) S16x128x512 .f32) [⟨r0_5, q1⟩] (left5_not_mem p k j hj),
    left5_emb p k j hj]
  exact View.canon_cons_emb r0_5 q1 [] _

theorem canon5_right (q0 q1 : Vec Ideal S16x128x256 .f32) (p : Fin 16) (k : Fin 128) (j : Fin 512) (hj : ¬ j.val < 256) :
    View.canon ([⟨r0_6, q0⟩, ⟨r0_5, q1⟩] : List (View.Piece (Elt Ideal) S16x128x512 .f32)) (ix3 p k j)
      = q0 (ix3 p k ⟨j.val - 256, by have := j.isLt; omega⟩) := by
  rw [right5_emb p k j hj]
  exact View.canon_cons_emb r0_6 q0 [⟨r0_5, q1⟩] _

/-- Row `k` of pair `p` of the second output block: the row of `x1`, then the normalised row of the mixed columns. -/
theorem out0_5_apply (x0 : Vec Ideal S16x64x256 .f32) (x1 : Vec Ideal S16x128x256 .f32) (x2 x3 : Vec Ideal S256 .f32)
    (p : Fin 16) (k : Fin 128) (j : Fin 512) :
    out0_5 (F := Ideal) x0 x1 x2 x3 (ix3 p k j)
      = secondRow (fun n d => x0 (ix3 p n d)) (fun k d => x1 (ix3 p k d)) (fun d => x2 (ix1 d)) (fun d => x3 (ix1 d)) k j := by
  unfold out0_5 secondRow
  simp only [View.ld_unit_zero (S := S16x64x256) zeros3, View.ld_unit_zero (S := S16x128x256) zeros3, View.ld_unit_zero (S := S256) zeros1]
  by_cases hj : j.val < 256
  · refine (canon5_left (k0_pay2 x2 x3 (k0_pay8 x0 x1)) (k0_pay4 x1) p k j hj).trans ?_
    rw [join_left _ _ j ⟨j.val, hj⟩ rfl]
    unfold k0_pay4
    rw [shapeCast_self]
  · refine (canon5_right (k0_pay2 x2 x3 (k0_pay8 x0 x1)) (k0_pay4 x1) p k j hj).trans ?_
    rw [BlockValue.normCols_apply,
      join_right _ _ j ⟨j.val - 256, by have := j.isLt; omega⟩ (by show j.val = 256 + (j.val - 256); omega)]

end Cert.KernelIdeal.BlockOut

end
-- ==== Proof.KernelArrays.lean ====
/-
  From the blocks to the arrays. The grid has 64 points; point `t` is given pairs `16 t, …, 16 t + 15` of the two input
  arrays `[1024, 64, 256]` and `[1024, 128, 256]` and all of `γ` and `β`, and writes pairs `16 t, …` of the two result
  arrays `[1024, 64, 512]` and `[1024, 128, 512]`. A result's row depends on its own pair only, so what point `t` writes is
  block `t` of ONE function of the input arrays — the whole results `wholeFirst`, `wholeSecond` — and since pair `b` lies in
  the block of point `b / 16`, the blocks tile the arrays: after the last point each result array holds that function.
-/
import proofs.«137363_j29265907155226_1_alg».proof.Proof.Gen.KernelIdeal.Frame
import proofs.«137363_j29265907155226_1_alg».proof.Proof.PairMixArrays
import proofs.«137363_j29265907155226_1_alg».proof.Proof.BlockOut
import Idealize.ShloMosaic.Lib.ValueIdx
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.ShloMosaic.ValueIdx Cert.PairMix
open Idealize.SL Idealize.SL.Sem
open Idealize.ShloMosaic.Pipeline (Dat Cfg Window)

/-- A block of 16 pairs is the whole arrays' pairs `16 T, …, 16 T + 15`: if the input blocks are those pairs of the input
    arrays, the first output block is those pairs of the first result. -/
theorem firstBlock_eq_whole (h1 : Vec Ideal S1024x64x256 .f32) (h2 : Vec Ideal S1024x128x256 .f32) (γ β : Vec Ideal S256 .f32)
    (x0 : Vec Ideal S16x64x256 .f32) (x1 : Vec Ideal S16x128x256 .f32) (x2 x3 : Vec Ideal S256 .f32) (T : Nat) (hT : T < 64)
    (e0 : ∀ (p : Fin 16) (n : Fin 64) (d : Fin 256), x0 (ix3 p n d) = h1 (ix3 ⟨T * 16 + p.val, by have := p.isLt; omega⟩ n d))
    (e1 : ∀ (p : Fin 16) (k : Fin 128) (d : Fin 256), x1 (ix3 p k d) = h2 (ix3 ⟨T * 16 + p.val, by have := p.isLt; omega⟩ k d))
    (e2 : ∀ d : Fin 256, x2 (ix1 d) = γ (ix1 d)) (e3 : ∀ d : Fin 256, x3 (ix1 d) = β (ix1 d))
    (p : Fin 16) (n : Fin 64) (j : Fin 512) :
    out0_4 (F := Ideal) x0 x1 x2 x3 (ix3 p n j) = wholeFirst h1 h2 γ β (ix3 ⟨T * 16 + p.val, by have := p.isLt; omega⟩ n j) := by
  rw [BlockOut.out0_4_apply, wholeFirst_apply]
  have a0 : (fun (n : Fin 64) (d : Fin 256) => x0 (ix3 p n d)) = fun n d => h1 (ix3 ⟨T * 16 + p.val, by have := p.isLt; omega⟩ n d) :=
    funext fun n => funext fun d => e0 p n d
  have a1 : (fun (k : Fin 128) (d : Fin 256) => x1 (ix3 p k d)) = fun k d => h2 (ix3 ⟨T * 16 + p.val, by have := p.isLt; omega⟩ k d) :=
    funext fun k => funext fun d => e1 p k d
  have a2 : (fun d : Fin 256 => x2 (ix1 d)) = fun d => γ (ix1 d) := funext e2
  have a3 : (fun d : Fin 256 => x3 (ix1 d)) = fun d => β (ix1 d) := funext e3
  rw [a0, a1, a2, a3]

theorem secondBlock_eq_whole (h1 : Vec Ideal S1024x64x256 .f32) (h2 : Vec Ideal S1024x128x256 .f32) (γ β : Vec Ideal S256 .f32)
    (x0 : Vec Ideal S16x64x256 .f32) (x1 : Vec Ideal S16x128x256 .f32) (x2 x3 : Vec Ideal S256 .f32) (T : Nat) (hT : T < 64)
    (e0 : ∀ (p : Fin 16) (n : Fin 64) (d : Fin 256), x0 (ix3 p n d) = h1 (ix3 ⟨T * 16 + p.val, by have := p.isLt; omega⟩ n d))
    (e1 : ∀ (p : Fin 16) (k : Fin 128) (d : Fin 256), x1 (ix3 p k d) = h2 (ix3 ⟨T * 16 + p.val, by have := p.isLt; omega⟩ k d))
    (e2 : ∀ d : Fin 256, x2 (ix1 d) = γ (ix1 d)) (e3 : ∀ d : Fin 256, x3 (ix1 d) = β (ix1 d))
    (p : Fin 16) (k : Fin 128) (j : Fin 512) :
    out0_5 (F := Ideal) x0 x1 x2 x3 (ix3 p k j) = wholeSecond h1 h2 γ β (ix3 ⟨T * 16 + p.val, by have := p.isLt; omega⟩ k j) := by
  rw [BlockOut.out0_5_apply, wholeSecond_apply]
  have a0 : (fun (n : Fin 64) (d : Fin 256) => x0 (ix3 p n d)) = fun n d => h1 (ix3 ⟨T * 16 + p.val, by have := p.isLt; omega⟩ n d) :=
    funext fun n => funext fun d => e0 p n d
  have a1 : (fun (k : Fin 128) (d : Fin 256) => x1 (ix3 p k d)) = fun k d => h2 (ix3 ⟨T * 16 + p.val, by have := p.isLt; omega⟩ k d) :=
    funext fun k => funext fun d => e1 p k d
  have a2 : (fun d : Fin 256 => x2 (ix1 d)) = fun d => γ (ix1 d) := funext e2
  have a3 : (fun d : Fin 256 => x3 (ix1 d)) = fun d => β (ix1 d) := funext e3
  rw [a0, a1, a2, a3]

/-- The same at any block index `y` and array index `i` whose coordinates are so related. -/
theorem firstBlock_eq_whole_at (h1 : Vec Ideal S1024x64x256 .f32) (h2 : Vec Ideal S1024x128x256 .f32) (γ β : Vec Ideal S256 .f32)
    (x0 : Vec Ideal S16x64x256 .f32) (x1 : Vec Ideal S16x128x256 .f32) (x2 x3 : Vec Ideal S256 .f32) (T : Nat) (hT : T < 64)
    (e0 : ∀ (p : Fin 16) (n : Fin 64) (d : Fin 256), x0 (ix3 p n d) = h1 (ix3 ⟨T * 16 + p.val, by have := p.isLt; omega⟩ n d))
    (e1 : ∀ (p : Fin 16) (k : Fin 128) (d : Fin 256), x1 (ix3 p k d) = h2 (ix3 ⟨T * 16 + p.val, by have := p.isLt; omega⟩ k d))
    (e2 : ∀ d : Fin 256, x2 (ix1 d) = γ (ix1 d)) (e3 : ∀ d : Fin 256, x3 (ix1 d) = β (ix1 d))
    (y : S16x64x512.Idx) (i : S1024x64x512.Idx)
    (hi0 : (i 0).val = T * 16 + (y 0).val) (hi1 : (i 1).val = (y 1).val) (hi2 : (i 2).val = (y 2).val) :
    out0_4 (F := Ideal) x0 x1 x2 x3 y = wholeFirst h1 h2 γ β i := by
  have hi : i = ix3 ⟨T * 16 + (y 0).val, by have : (y 0).val < 16 := (y 0).isLt; omega⟩ (y 1) (y 2) := funext fun a => Fin.ext (by
    match a with
    | ⟨0, _⟩ => exact hi0
    | ⟨1, _⟩ => exact hi1
    | ⟨2, _⟩ => exact hi2)
  calc out0_4 (F := Ideal) x0 x1 x2 x3 y
      = out0_4 (F := Ideal) x0 x1 x2 x3 (ix3 (y 0) (y 1) (y 2)) := congrArg _ (eq_ix3 y)
    _ = wholeFirst h1 h2 γ β (ix3 ⟨T * 16 + (y 0).val, by have : (y 0).val < 16 := (y 0).isLt; omega⟩ (y 1) (y 2)) :=
        firstBlock_eq_whole h1 h2 γ β x0 x1 x2 x3 T hT e0 e1 e2 e3 (y 0) (y 1) (y 2)
    _ = wholeFirst h1 h2 γ β i := congrArg _ hi.symm

theorem secondBlock_eq_whole_at (h1 : Vec Ideal S1024x64x256 .f32) (h2 : Vec Ideal S1024x128x256 .f32) (γ β : Vec Ideal S256 .f32)
    (x0 : Vec Ideal S16x64x256 .f32) (x1 : Vec Ideal S16x128x256 .f32) (x2 x3 : Vec Ideal S256 .f32) (T : Nat) (hT : T < 64)
    (e0 : ∀ (p : Fin 16) (n : Fin 64) (d : Fin 256), x0 (ix3 p n d) = h1 (ix3 ⟨T * 16 + p.val, by have := p.isLt; omega⟩ n d))
    (e1 : ∀ (p : Fin 16) (k : Fin 128) (d : Fin 256), x1 (ix3 p k d) = h2 (ix3 ⟨T * 16 + p.val, by have := p.isLt; omega⟩ k d))
    (e2 : ∀ d : Fin 256, x2 (ix1 d) = γ (ix1 d)) (e3 : ∀ d : Fin 256, x3 (ix1 d) = β (ix1 d))
    (y : S16x128x512.Idx) (i : S1024x128x512.Idx)
    (hi0 : (i 0).val = T * 16 + (y 0).val) (hi1 : (i 1).val = (y 1).val) (hi2 : (i 2).val = (y 2).val) :
    out0_5 (F := Ideal) x0 x1 x2 x3 y = wholeSecond h1 h2 γ β i := by
  have hi : i = ix3 ⟨T * 16 + (y 0).val, by have : (y 0).val < 16 := (y 0).isLt; omega⟩ (y 1) (y 2) := funext fun a => Fin.ext (by
    match a with
    | ⟨0, _⟩ => exact hi0
    | ⟨1, _⟩ => exact hi1
    | ⟨2, _⟩ => exact hi2)
  calc out0_5 (F := Ideal) x0 x1 x2 x3 y
      = out0_5 (F := Ideal) x0 x1 x2 x3 (ix3 (y 0) (y 1) (y 2)) := congrArg _ (eq_ix3 y)
    _ = wholeSecond h1 h2 γ β (ix3 ⟨T * 16 + (y 0).val, by have : (y 0).val < 16 := (y 0).isLt; omega⟩ (y 1) (y 2)) :=
        secondBlock_eq_whole h1 h2 γ β x0 x1 x2 x3 T hT e0 e1 e2 e3 (y 0) (y 1) (y 2)
    _ = wholeSecond h1 h2 γ β i := congrArg _ hi.symm

/-- The printed index maps over the grid: point `t` takes pairs `16 t …` of every three-axis window and the whole of `γ`, `β`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The grid has 64 points. -/
theorem point_lt (t : Fin cfg0.N) : t.val < 64 := by
  have h : cfg0.N = 64 := N_0
  have := t.isLt
  omega

variable (m : (ℓ : Loc nD τ sig) → Buf (Elt Ideal) ℓ) (ρ : Dev nD → PrngReg)

/-- The arrays the region finds, at their literal types. -/
abbrev h1arr (c : Dev nD) : Vec Ideal S1024x64x256 .f32 := V m c main_v0
abbrev h2arr (c : Dev nD) : Vec Ideal S1024x128x256 .f32 := V m c main_v1
abbrev gammaArr (c : Dev nD) : Vec Ideal S256 .f32 := V m c main_arg4
abbrev betaArr (c : Dev nD) : Vec Ideal S256 .f32 := V m c main_arg5

/-- Point `t`'s input blocks are pairs `16 t …` of the input arrays, and all of `γ` and `β`. -/
theorem iblk0_apply (c : Dev nD) (t : Fin cfg0.N) (p : Fin 16) (n : Fin 64) (d : Fin 256) :
    (iblk m c 0 t : Vec Ideal S16x64x256 .f32) (ix3 p n d) = h1arr m c (ix3 ⟨t.val * 16 + p.val, by have := p.isLt; have := point_lt t; omega⟩ n d) := by
  obtain ⟨f0, f1, f2, -⟩ := idx_facts t
  show V m c main_v0 (((cfg0.win 0).blk t).view.emb (ix3 p n d)) = V m c main_v0 _
  refine congrArg (V m c main_v0) (funext fun a => Fin.ext ?_)
  match a with
  | ⟨0, _⟩ => show win0_0.index t (0 : Fin 3) * 16 + 1 * p.val = t.val * 16 + p.val; rw [f0]; omega
  | ⟨1, _⟩ => show win0_0.index t (1 : Fin 3) * 64 + 1 * n.val = n.val; rw [f1]; omega
  | ⟨2, _⟩ => show win0_0.index t (2 : Fin 3) * 256 + 1 * d.val = d.val; rw [f2]; omega

theorem iblk1_apply (c : Dev nD) (t : Fin cfg0.N) (p : Fin 16) (k : Fin 128) (d : Fin 256) :
    (iblk m c 1 t : Vec Ideal S16x128x256 .f32) (ix3 p k d) = h2arr m c (ix3 ⟨t.val * 16 + p.val, by have := p.isLt; have := point_lt t; omega⟩ k d) := by
  obtain ⟨-, -, -, f0, f1, f2, -⟩ := idx_facts t
  show V m c main_v1 (((cfg0.win 1).blk t).view.emb (ix3 p k d)) = V m c main_v1 _
  refine congrArg (V m c main_v1) (funext fun a => Fin.ext ?_)
  match a with
  | ⟨0, _⟩ => show win0_1.index t (0 : Fin 3) * 16 + 1 * p.val = t.val * 16 + p.val; rw [f0]; omega
  | ⟨1, _⟩ => show win0_1.index t (1 : Fin 3) * 128 + 1 * k.val = k.val; rw [f1]; omega
  | ⟨2, _⟩ => show win0_1.index t (2 : Fin 3) * 256 + 1 * d.val = d.val; rw [f2]; omega

theorem iblk2_apply (c : Dev nD) (t : Fin cfg0.N) (d : Fin 256) :
    (iblk m c 2 t : Vec Ideal S256 .f32) (ix1 d) = gammaArr m c (ix1 d) := by
  obtain ⟨-, -, -, -, -, -, f0, -⟩ := idx_facts t
  show V m c main_arg4 (((cfg0.win 2).blk t).view.emb (ix1 d)) = V m c main_arg4 _
  refine congrArg (V m c main_arg4) (funext fun a => Fin.ext ?_)
  match a with
  | ⟨0, _⟩ => show win0_2.index t (0 : Fin 1) * 256 + 1 * d.val = d.val; rw [f0]; omega

theorem iblk3_apply (c : Dev nD) (t : Fin cfg0.N) (d : Fin 256) :
    (iblk m c 3 t : Vec Ideal S256 .f32) (ix1 d) = betaArr m c (ix1 d) := by
  obtain ⟨-, -, -, -, -, -, -, f0, -⟩ := idx_facts t
  show V m c main_arg5 (((cfg0.win 3).blk t).view.emb (ix1 d)) = V m c main_arg5 _
  refine congrArg (V m c main_arg5) (funext fun a => Fin.ext ?_)
  match a with
  | ⟨0, _⟩ => show win0_3.index t (0 : Fin 1) * 256 + 1 * d.val = d.val; rw [f0]; omega

/-- What point `t` writes back to the first result's array is block `t` of the whole first result. -/
theorem flushed4_eq (c : Dev nD) (t : Fin cfg0.N) :
    (dats m 0 c).flushed 4 t
      = ((cfg0.win 4).blk t).view.read (Elt Ideal) (wholeFirst (h1arr m c) (h2arr m c) (gammaArr m c) (betaArr m c)) := by
  show (cfg0.win 4).cut (grid0.coords t) ((dats m 0 c).after 4 t) = _
  rw [after0_4]
  obtain ⟨-, -, -, -, -, -, -, -, f0, f1, f2, -⟩ := idx_facts t
  funext y
  exact firstBlock_eq_whole_at (h1arr m c) (h2arr m c) (gammaArr m c) (betaArr m c)
    (iblk m c 0 t) (iblk m c 1 t) (iblk m c 2 t) (iblk m c 3 t) t.val (point_lt t)
    (iblk0_apply m c t) (iblk1_apply m c t) (iblk2_apply m c t) (iblk3_apply m c t) y (((cfg0.win 4).blk t).view.emb y)
    (by show win0_4.index t (0 : Fin 3) * 16 + 1 * (y 0).val = t.val * 16 + (y 0).val; rw [f0]; omega)
    (by show win0_4.index t (1 : Fin 3) * 64 + 1 * (y 1).val = (y 1).val; rw [f1]; omega)
    (by show win0_4.index t (2 : Fin 3) * 512 + 1 * (y 2).val = (y 2).val; rw [f2]; omega)

theorem flushed5_eq (c : Dev nD) (t : Fin cfg0.N) :
    (dats m 0 c).flushed 5 t
      = ((cfg0.win 5).blk t).view.read (Elt Ideal) (wholeSecond (h1arr m c) (h2arr m c) (gammaArr m c) (betaArr m c)) := by
  show (cfg0.win 5).cut (grid0.coords t) ((dats m 0 c).after 5 t) = _
  rw [after0_5]
  obtain ⟨-, -, -, -, -, -, -, -, -, -, -, f0, f1, f2⟩ := idx_facts t
  funext y
  exact secondBlock_eq_whole_at (h1arr m c) (h2arr m c) (gammaArr m c) (betaArr m c)
    (iblk m c 0 t) (iblk m c 1 t) (iblk m c 2 t) (iblk m c 3 t) t.val (point_lt t)
    (iblk0_apply m c t) (iblk1_apply m c t) (iblk2_apply m c t) (iblk3_apply m c t) y (((cfg0.win 5).blk t).view.emb y)
    (by show win0_5.index t (0 : Fin 3) * 16 + 1 * (y 0).val = t.val * 16 + (y 0).val; rw [f0]; omega)
    (by show win0_5.index t (1 : Fin 3) * 128 + 1 * (y 1).val = (y 1).val; rw [f1]; omega)
    (by show win0_5.index t (2 : Fin 3) * 512 + 1 * (y 2).val = (y 2).val; rw [f2]; omega)

/-- An index of the first result's array is in point `t`'s block iff each coordinate is in the block's range on its axis. -/
theorem mem_blk4 (t : Fin cfg0.N) (i : S1024x64x512.Idx) :
    i ∈ ((cfg0.win 4).blk t).view.set ↔ ∀ a : Fin 3, win0_4.index t a * S16x64x512.size a ≤ (i a).val
      ∧ (i a).val < win0_4.index t a * S16x64x512.size a + S16x64x512.size a := by
  show i ∈ ((View.whole main_v2_0).slice (win0_4.rect t)).set ↔ _
  rw [View.set_slice_whole, Rect.mem_set_unit]
  exact Iff.rfl

theorem mem_blk5 (t : Fin cfg0.N) (i : S1024x128x512.Idx) :
    i ∈ ((cfg0.win 5).blk t).view.set ↔ ∀ a : Fin 3, win0_5.index t a * S16x128x512.size a ≤ (i a).val
      ∧ (i a).val < win0_5.index t a * S16x128x512.size a + S16x128x512.size a := by
  show i ∈ ((View.whole main_v2_1).slice (win0_5.rect t)).set ↔ _
  rw [View.set_slice_whole, Rect.mem_set_unit]
  exact Iff.rfl

/-- Pair `b` lies in the block of point `b / 16`: the 64 blocks of 16 pairs tile the 1024 pairs. -/
theorem cover4 (i : S1024x64x512.Idx) :
    ∃ t : Fin cfg0.N, (cfg0.win 4).flush t = true ∧ i ∈ ((cfg0.win 4).blk t).view.set := by
  have hi0 : (i 0).val < 1024 := (i 0).isLt
  have hi1 : (i 1).val < 64 := (i 1).isLt
  have hi2 : (i 2).val < 512 := (i 2).isLt
  have hN : cfg0.N = 64 := N_0
  have ht : (i 0).val / 16 < cfg0.N := by omega
  obtain ⟨-, -, -, -, -, -, -, -, f0, f1, f2, -⟩ := idx_facts ⟨(i 0).val / 16, ht⟩
  have g0 : win0_4.index ⟨(i 0).val / 16, ht⟩ (0 : Fin 3) = (i 0).val / 16 := f0
  refine ⟨⟨(i 0).val / 16, ht⟩, flush0_4 _, ?_⟩
  rw [mem_blk4]
  intro a
  match a with
  | ⟨0, _⟩ =>
    show win0_4.index ⟨(i 0).val / 16, ht⟩ (0 : Fin 3) * 16 ≤ (i 0).val ∧ (i 0).val < win0_4.index ⟨(i 0).val / 16, ht⟩ (0 : Fin 3) * 16 + 16
    rw [g0]; omega
  | ⟨1, _⟩ =>
    show win0_4.index ⟨(i 0).val / 16, ht⟩ (1 : Fin 3) * 64 ≤ (i 1).val ∧ (i 1).val < win0_4.index ⟨(i 0).val / 16, ht⟩ (1 : Fin 3) * 64 + 64
    rw [f1]; omega
  | ⟨2, _⟩ =>
    show win0_4.index ⟨(i 0).val / 16, ht⟩ (2 : Fin 3) * 512 ≤ (i 2).val ∧ (i 2).val < win0_4.index ⟨(i 0).val / 16, ht⟩ (2 : Fin 3) * 512 + 512
    rw [f2]; omega

theorem cover5 (i : S1024x128x512.Idx) :
    ∃ t : Fin cfg0.N, (cfg0.win 5).flush t = true ∧ i ∈ ((cfg0.win 5).blk t).view.set := by
  have hi0 : (i 0).val < 1024 := (i 0).isLt
  have hi1 : (i 1).val < 128 := (i 1).isLt
  have hi2 : (i 2).val < 512 := (i 2).isLt
  have hN : cfg0.N = 64 := N_0
  have ht : (i 0).val / 16 < cfg0.N := by omega
  obtain ⟨-, -, -, -, -, -, -, -, -, -, -, f0, f1, f2⟩ := idx_facts ⟨(i 0).val / 16, ht⟩
  have g0 : win0_5.index ⟨(i 0).val / 16, ht⟩ (0 : Fin 3) = (i 0).val / 16 := f0
  refine ⟨⟨(i 0).val / 16, ht⟩, flush0_5 _, ?_⟩
  rw [mem_blk5]
  intro a
  match a with
  | ⟨0, _⟩ =>
    show win0_5.index ⟨(i 0).val / 16, ht⟩ (0 : Fin 3) * 16 ≤ (i 0).val ∧ (i 0).val < win0_5.index ⟨(i 0).val / 16, ht⟩ (0 : Fin 3) * 16 + 16
    rw [g0]; omega
  | ⟨1, _⟩ =>
    show win0_5.index ⟨(i 0).val / 16, ht⟩ (1 : Fin 3) * 128 ≤ (i 1).val ∧ (i 1).val < win0_5.index ⟨(i 0).val / 16, ht⟩ (1 : Fin 3) * 128 + 128
    rw [f1]; omega
  | ⟨2, _⟩ =>
    show win0_5.index ⟨(i 0).val / 16, ht⟩ (2 : Fin 3) * 512 ≤ (i 2).val ∧ (i 2).val < win0_5.index ⟨(i 0).val / 16, ht⟩ (2 : Fin 3) * 512 + 512
    rw [f2]; omega

/-- After the last point the two result arrays hold the whole results of the arrays the region found. -/
theorem final4 (c : Dev nD) :
    (dats m 0 c).arrAt 4 cfg0.N = wholeFirst (h1arr m c) (h2arr m c) (gammaArr m c) (betaArr m c) :=
  (dats m 0 c).arrAt_eq_of_cover 4 _ (fun t _ => flushed4_eq m c t) cover4

theorem final5 (c : Dev nD) :
    (dats m 0 c).arrAt 5 cfg0.N = wholeSecond (h1arr m c) (h2arr m c) (gammaArr m c) (betaArr m c) :=
  (dats m 0 c).arrAt_eq_of_cover 5 _ (fun t _ => flushed5_eq m c t) cover5

end Cert.KernelIdeal.Arrays

end
-- ==== Proof.KernelRun.lean ====
/-
  The kernel's program from its arguments to its results. Before the grid the two matrix arguments `[65536, 256]` and
  `[131072, 256]` are regrouped by pairs into `[1024, 64, 256]` and `[1024, 128, 256]` (consecutive rows, 64 or 128 to a
  pair); after it the two result arrays are laid out again with one row per matrix row. Both are changes of shape that keep
  the row-major order, so the results are those changes of shape around the whole results of the regrouped arguments; the
  scale and the shift reach the grid unchanged.
-/
import proofs.«137363_j29265907155226_1_alg».proof.Proof.KernelArrays
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.ShloMosaic.ValueIdx Cert.PairMix
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

theorem h1arr_eq (c : Dev nD) :
    h1arr m c = shapeCast S1024x64x256 (m ((c : Thread nD τ).loc main_arg0)) shapeCasts_S65536x256_S1024x64x256 := by
  show StableHlo.after hostOps0 (fun b => m (c, b)) (Proc.devRef .tc main_v0) = _
  after_results
  rfl

theorem h2arr_eq (c : Dev nD) :
    h2arr m c = shapeCast S1024x128x256 (m ((c : Thread nD τ).loc main_arg1)) shapeCasts_S131072x256_S1024x128x256 := by
  show StableHlo.after hostOps0 (fun b => m (c, b)) (Proc.devRef .tc main_v1) = _
  after_results
  rfl

theorem tail3 (c : Dev nD) :
    Pipeline.afterTail₀ cfgs (dats m) 0 (V0 m) [hostOps1] c main_v3
      = shapeCast S65536x512 ((dats m 0 c).arrAt 4 cfg0.N) shapeCasts_S1024x64x512_S65536x512 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = (dats m 0 c).arrAt 4 cfg0.N :=
    Pipeline.withArrays_arr spec0 launch0.win.arr_inj c (V0 m c) (fun w => (dats m 0 c).arrAt w (cfgs 0).N) 4
  rw [e]
  rfl

theorem tail4 (c : Dev nD) :
    Pipeline.afterTail₀ cfgs (dats m) 0 (V0 m) [hostOps1] c main_v4
      = shapeCast S131072x512 ((dats m 0 c).arrAt 5 cfg0.N) shapeCasts_S1024x128x512_S131072x512 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = (dats m 0 c).arrAt 5 cfg0.N :=
    Pipeline.withArrays_arr spec0 launch0.win.arr_inj c (V0 m c) (fun w => (dats m 0 c).arrAt w (cfgs 0).N) 5
  rw [e]
  rfl

/-- The first result as a function of the argument arrays: the arguments regrouped by pairs, the whole first result of
    those, and its rows laid out again as `[65536, 512]`. -/
def firstResult (a0 : Vec Ideal S65536x256 .f32) (a1 : Vec Ideal S131072x256 .f32) (a4 a5 : Vec Ideal S256 .f32) : Vec Ideal S65536x512 .f32 :=
  shapeCast S65536x512 (wholeFirst (shapeCast S1024x64x256 a0 shapeCasts_S65536x256_S1024x64x256)
    (shapeCast S1024x128x256 a1 shapeCasts_S131072x256_S1024x128x256) a4 a5) shapeCasts_S1024x64x512_S65536x512

def secondResult (a0 : Vec Ideal S65536x256 .f32) (a1 : Vec Ideal S131072x256 .f32) (a4 a5 : Vec Ideal S256 .f32) : Vec Ideal S131072x512 .f32 :=
  shapeCast S131072x512 (wholeSecond (shapeCast S1024x64x256 a0 shapeCasts_S65536x256_S1024x64x256)
    (shapeCast S1024x128x256 a1 shapeCasts_S131072x256_S1024x128x256) a4 a5) shapeCasts_S1024x128x512_S131072x512

theorem tail3_eq (c : Dev nD) :
    Pipeline.afterTail₀ cfgs (dats m) 0 (V0 m) [hostOps1] c main_v3
      = firstResult (m ((c : Thread nD τ).loc main_arg0)) (m ((c : Thread nD τ).loc main_arg1)) (m ((c : Thread nD τ).loc main_arg4)) (m ((c : Thread nD τ).loc main_arg5)) := by
  rw [tail3, final4, h1arr_eq, h2arr_eq]
  show shapeCast S65536x512 (wholeFirst _ _ (V m c main_arg4) (V m c main_arg5)) _ = _
  rw [V_main_arg4, V_main_arg5]
  rfl

theorem tail4_eq (c : Dev nD) :
    Pipeline.afterTail₀ cfgs (dats m) 0 (V0 m) [hostOps1] c main_v4
      = secondResult (m ((c : Thread nD τ).loc main_arg0)) (m ((c : Thread nD τ).loc main_arg1)) (m ((c : Thread nD τ).loc main_arg4)) (m ((c : Thread nD τ).loc main_arg5)) := by
  rw [tail4, final5, h1arr_eq, h2arr_eq]
  show shapeCast S131072x512 (wholeSecond _ _ (V m c main_arg4) (V m c main_arg5)) _ = _
  rw [V_main_arg4, V_main_arg5]
  rfl

/-- Every weakly fair execution of the kernel's program terminates with its two results at `firstResult` and `secondResult`
    of the arguments, and the arguments unchanged. -/
theorem run : θ_run defs (onTc (τ := τ) (main (F := Ideal))) ⟨m, fun _ => 0, ρ⟩ fun r => ∀ c : Dev nD,
      r.2.mem ((c.tc : Thread nD τ).loc main_v3) = firstResult (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_v4) = secondResult (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v3 (Pipeline.mem_restRefs_of main_v3 (by decide) (by decide))).trans (tail3_eq m c),
      ((h c).2 main_v4 (Pipeline.mem_restRefs_of main_v4 (by decide) (by decide))).trans (tail4_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c)))⟩)
    (run_main m ρ)

end Cert.KernelIdeal.Arrays

end
-- ==== Proof.RefValue.lean ====
/-
  The reference program's two joined arrays, read entry by entry, are the specification's `firstRow` and `secondRow`.

  For one pair `b`, write `X` for the 64 rows and `Y` for the 128 rows the two regrouped arguments hold at `b`. Stage by
  stage, each at explicit coordinates:
    the contraction over the row length, scaled and clipped, is `gram X Y n k`;
    its contraction with `Y` over the 128 rows is `mixRows X Y n d`, and with `X` over the 64 rows is `mixCols X Y k d`;
    a sum over the row length begun at the zero word and divided by the width word is `rowMean`, the same of the squared
    deviations is `rowVar`, and deviation times reciprocal root times scale plus shift is `rowNorm`;
    a joined row reads its first piece below position 256 and its second piece, at the position less 256, from there on.
  Every index function met on the way is identified with the index built from its coordinates, coordinate by coordinate;
  no law of the extended reals is used beyond `0 + s = s` for the sums' starting word.
-/
import proofs.«137363_j29265907155226_1_alg».proof.Proof.Gen.ReferenceIdeal.Read
import proofs.«137363_j29265907155226_1_alg».proof.Proof.PairMix
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.PairMix

section Stages

variable (x0 : (⟨S65536x256, .f32⟩ : BufTy).Contents (Elt Ideal)) (x1 : (⟨S131072x256, .f32⟩ : BufTy).Contents (Elt Ideal))
  (x4 x5 : (⟨S256, .f32⟩ : BufTy).Contents (Elt Ideal))

/-- The 64 rows of pair `b` of the first argument, once it is regrouped by pairs. -/
abbrev rowsX (b : Fin 1024) : Fin 64 → Fin 256 → EReal := fun n d => val_main_v0 (F := Ideal) x0 (ix3 b n d)
/-- The 128 rows of pair `b` of the second argument, once it is regrouped by pairs. -/
abbrev rowsY (b : Fin 1024) : Fin 128 → Fin 256 → EReal := fun k d => val_main_v1 (F := Ideal) x1 (ix3 b k d)
/-- The scale vector's entries. -/
abbrev scaleV : Fin 256 → EReal := fun d => x4 (ix1 d)
/-- The shift vector's entries. -/
abbrev shiftV : Fin 256 → EReal := fun d => x5 (ix1 d)

/-! ## The clipped matrix of inner products -/

/-- The contraction over the row length, times the scale word, then the maximum with the lower bound and the minimum
    with the upper bound, each bound as the FIRST operand: the specification's `gram` entry by entry. -/
theorem gram_apply (b : Fin 1024) (n : Fin 64) (k : Fin 128) :
    val_main_v5 (F := Ideal) x0 x1 (ix3 b n k) = gram (rowsX x0 b) (rowsY x1 b) n k := by
  rw [val_main_v5_apply, val_main_call0_v4_apply, val_main_call0_v3_apply, val_main_cst_1_apply,
    val_main_call0_v2_apply, val_main_call0_v1_apply, val_main_call0_v0_apply, val_main_cst_0_apply,
    val_main_v4_apply, val_main_v3_apply, val_main_cst_apply, val_main_v2_apply]
  unfold gram
  show min cHi (max cLo ((∑ d : Fin 256, val_main_v0 (F := Ideal) x0 (lidx_main_v2 (ix3 b n k) d)
      * val_main_v1 (F := Ideal) x1 (ridx_main_v2 (ix3 b n k) d)) * cScale)) = _
  refine congrArg (fun s : EReal => min cHi (max cLo (s * cScale))) (Finset.sum_congr rfl fun d _ => ?_)
  have el : lidx_main_v2 (ix3 b n k) d = ix3 b n d := funext fun a => Fin.ext (by match a with | ⟨0, _⟩ => rfl | ⟨1, _⟩ => rfl | ⟨2, _⟩ => rfl)
  have er : ridx_main_v2 (ix3 b n k) d = ix3 b k d := funext fun a => Fin.ext (by match a with | ⟨0, _⟩ => rfl | ⟨1, _⟩ => rfl | ⟨2, _⟩ => rfl)
  rw [el, er]

/-! ## The two products with the clipped matrix -/

/-- The clipped matrix times the second argument's rows: the contraction runs over the 128 rows. -/
theorem mixRows_apply (b : Fin 1024) (n : Fin 64) (d : Fin 256) :
    val_main_v6 (F := Ideal) x0 x1 (ix3 b n d) = mixRows (rowsX x0 b) (rowsY x1 b) n d := by
  rw [val_main_v6_apply]
  unfold mixRows
  refine Finset.sum_congr rfl fun k _ => ?_
  have el : lidx_main_v6 (ix3 b n d) k = ix3 b n k := funext fun a => Fin.ext (by match a with | ⟨0, _⟩ => rfl | ⟨1, _⟩ => rfl | ⟨2, _⟩ => rfl)
  have er : ridx_main_v6 (ix3 b n d) k = ix3 b k d := funext fun a => Fin.ext (by match a with | ⟨0, _⟩ => rfl | ⟨1, _⟩ => rfl | ⟨2, _⟩ => rfl)
  rw [el, er, gram_apply]

/-- The clipped matrix transposed times the first argument's rows: the contraction runs over the 64 rows. -/
theorem mixCols_apply (b : Fin 1024) (k : Fin 128) (d : Fin 256) :
    val_main_v31 (F := Ideal) x0 x1 (ix3 b k d) = mixCols (rowsX x0 b) (rowsY x1 b) k d := by
  rw [val_main_v31_apply]
  unfold mixCols
  refine Finset.sum_congr rfl fun n _ => ?_
  have el : lidx_main_v31 (ix3 b k d) n = ix3 b n k := funext fun a => Fin.ext (by match a with | ⟨0, _⟩ => rfl | ⟨1, _⟩ => rfl | ⟨2, _⟩ => rfl)
  have er : ridx_main_v31 (ix3 b k d) n = ix3 b n d := funext fun a => Fin.ext (by match a with | ⟨0, _⟩ => rfl | ⟨1, _⟩ => rfl | ⟨2, _⟩ => rfl)
  rw [el, er, gram_apply]

/-! ## The first result's normalised half: mean, deviation, variance, reciprocal root, scale and shift -/

/-- The row's mean: the sum over the row length, begun at the zero word, divided by the width word. -/
theorem meanRows_apply (b : Fin 1024) (n : Fin 64) (z : Fin 1) :
    val_main_v10 (F := Ideal) x0 x1 (ix3 b n z) = rowMean (mixRows (rowsX x0 b) (rowsY x1 b) n) := by
  rw [val_main_v10_apply, val_main_v9_apply, val_main_cst_3_apply, val_main_v8_apply, val_main_v7_apply,
    val_main_cst_2_apply]
  unfold rowMean
  show Ideal.div (Ideal.ofBits .f32 0x00000000#32
      + ∑ e : Fin 256, val_main_v6 (F := Ideal) x0 x1 (idx_main_v7 (idx_main_v8 (ix3 b n z)) e)) cWidth = _
  rw [Ideal.ofBits_zero_f32, zero_add]
  refine congrArg (fun s : EReal => Ideal.div s cWidth) (Finset.sum_congr rfl fun e _ => ?_)
  have ei : idx_main_v7 (idx_main_v8 (ix3 b n z)) e = ix3 b n e := funext fun a => Fin.ext (by match a with | ⟨0, _⟩ => rfl | ⟨1, _⟩ => rfl | ⟨2, _⟩ => rfl)
  rw [ei, mixRows_apply]

/-- An entry's deviation from its row's mean (the stage the variance squares). -/
theorem devRows_apply (b : Fin 1024) (n : Fin 64) (d : Fin 256) :
    val_main_v12 (F := Ideal) x0 x1 (ix3 b n d)
      = mixRows (rowsX x0 b) (rowsY x1 b) n d - rowMean (mixRows (rowsX x0 b) (rowsY x1 b) n) := by
  rw [val_main_v12_apply, val_main_v11_apply]
  have ei : idx_main_v11 (ix3 b n d) = ix3 b n (⟨0, Nat.one_pos⟩ : Fin 1) := funext fun a => Fin.ext (by match a with | ⟨0, _⟩ => rfl | ⟨1, _⟩ => rfl | ⟨2, _⟩ => rfl)
  rw [ei, meanRows_apply, mixRows_apply]
  rfl

/-- The same deviation, computed a second time for the normalised entry. -/
theorem devRows'_apply (b : Fin 1024) (n : Fin 64) (d : Fin 256) :
    val_main_v19 (F := Ideal) x0 x1 (ix3 b n d)
      = mixRows (rowsX x0 b) (rowsY x1 b) n d - rowMean (mixRows (rowsX x0 b) (rowsY x1 b) n) := by
  rw [val_main_v19_apply, val_main_v18_apply]
  have ei : idx_main_v18 (ix3 b n d) = ix3 b n (⟨0, Nat.one_pos⟩ : Fin 1) := funext fun a => Fin.ext (by match a with | ⟨0, _⟩ => rfl | ⟨1, _⟩ => rfl | ⟨2, _⟩ => rfl)
  rw [ei, meanRows_apply, mixRows_apply]
  rfl

/-- The row's variance: the sum of the squared deviations, begun at the zero word, divided by the width word. -/
theorem varRows_apply (b : Fin 1024) (n : Fin 64) (z : Fin 1) :
    val_main_v17 (F := Ideal) x0 x1 (ix3 b n z) = rowVar (mixRows (rowsX x0 b) (rowsY x1 b) n) := by
  rw [val_main_v17_apply, val_main_v16_apply, val_main_cst_5_apply, val_main_v15_apply, val_main_v14_apply,
    val_main_cst_4_apply]
  unfold rowVar
  show Ideal.div (Ideal.ofBits .f32 0x00000000#32
      + ∑ e : Fin 256, val_main_v13 (F := Ideal) x0 x1 (idx_main_v14 (idx_main_v15 (ix3 b n z)) e)) cWidth = _
  rw [Ideal.ofBits_zero_f32, zero_add]
  refine congrArg (fun s : EReal => Ideal.div s cWidth) (Finset.sum_congr rfl fun e _ => ?_)
  have ei : idx_main_v14 (idx_main_v15 (ix3 b n z)) e = ix3 b n e := funext fun a => Fin.ext (by match a with | ⟨0, _⟩ => rfl | ⟨1, _⟩ => rfl | ⟨2, _⟩ => rfl)
  rw [ei, val_main_v13_apply, devRows_apply]
  rfl

/-- The reciprocal root of the variance plus the offset word. -/
theorem rstdRows_apply (b : Fin 1024) (n : Fin 64) (z : Fin 1) :
    val_main_v22 (F := Ideal) x0 x1 (ix3 b n z)
      = Ideal.rsqrt (rowVar (mixRows (rowsX x0 b) (rowsY x1 b) n) + cEps) := by
  rw [val_main_v22_apply, val_main_v21_apply, val_main_v20_apply, val_main_cst_6_apply, varRows_apply]
  rfl

/-- The normalised entry: deviation times reciprocal root, times the scale entry, plus the shift entry. -/
theorem normRows_apply (b : Fin 1024) (n : Fin 64) (d : Fin 256) :
    val_main_v30 (F := Ideal) x0 x1 x4 x5 (ix3 b n d)
      = rowNorm (mixRows (rowsX x0 b) (rowsY x1 b) n) (scaleV x4) (shiftV x5) d := by
  rw [val_main_v30_apply, val_main_v29_apply, val_main_v28_apply, val_main_v27_apply, val_main_v26_apply,
    val_main_v25_apply, val_main_v24_apply, val_main_v23_apply]
  have e4 : idx_main_v25 (idx_main_v26 (ix3 b n d)) = ix1 d := funext fun a => Fin.ext (by match a with | ⟨0, _⟩ => rfl)
  have e5 : idx_main_v28 (idx_main_v29 (ix3 b n d)) = ix1 d := funext fun a => Fin.ext (by match a with | ⟨0, _⟩ => rfl)
  have er : idx_main_v23 (ix3 b n d) = ix3 b n (⟨0, Nat.one_pos⟩ : Fin 1) := funext fun a => Fin.ext (by match a with | ⟨0, _⟩ => rfl | ⟨1, _⟩ => rfl | ⟨2, _⟩ => rfl)
  rw [e4, e5, er, rstdRows_apply, devRows'_apply]
  rfl

/-! ## The second result's normalised half: the same stages over the 128 rows of `mixCols` -/

/-- The row's mean: the sum over the row length, begun at the zero word, divided by the width word. -/
theorem meanCols_apply (b : Fin 1024) (k : Fin 128) (z : Fin 1) :
    val_main_v35 (F := Ideal) x0 x1 (ix3 b k z) = rowMean (mixCols (rowsX x0 b) (rowsY x1 b) k) := by
  rw [val_main_v35_apply, val_main_v34_apply, val_main_cst_8_apply, val_main_v33_apply, val_main_v32_apply,
    val_main_cst_7_apply]
  unfold rowMean
  show Ideal.div (Ideal.ofBits .f32 0x00000000#32
      + ∑ e : Fin 256, val_main_v31 (F := Ideal) x0 x1 (idx_main_v32 (idx_main_v33 (ix3 b k z)) e)) cWidth = _
  rw [Ideal.ofBits_zero_f32, zero_add]
  refine congrArg (fun s : EReal => Ideal.div s cWidth) (Finset.sum_congr rfl fun e _ => ?_)
  have ei : idx_main_v32 (idx_main_v33 (ix3 b k z)) e = ix3 b k e := funext fun a => Fin.ext (by match a with | ⟨0, _⟩ => rfl | ⟨1, _⟩ => rfl | ⟨2, _⟩ => rfl)
  rw [ei, mixCols_apply]

/-- An entry's deviation from its row's mean (the stage the variance squares). -/
theorem devCols_apply (b : Fin 1024) (k : Fin 128) (d : Fin 256) :
    val_main_v37 (F := Ideal) x0 x1 (ix3 b k d)
      = mixCols (rowsX x0 b) (rowsY x1 b) k d - rowMean (mixCols (rowsX x0 b) (rowsY x1 b) k) := by
  rw [val_main_v37_apply, val_main_v36_apply]
  have ei : idx_main_v36 (ix3 b k d) = ix3 b k (⟨0, Nat.one_pos⟩ : Fin 1) := funext fun a => Fin.ext (by match a with | ⟨0, _⟩ => rfl | ⟨1, _⟩ => rfl | ⟨2, _⟩ => rfl)
  rw [ei, meanCols_apply, mixCols_apply]
  rfl

/-- The same deviation, computed a second time for the normalised entry. -/
theorem devCols'_apply (b : Fin 1024) (k : Fin 128) (d : Fin 256) :
    val_main_v44 (F := Ideal) x0 x1 (ix3 b k d)
      = mixCols (rowsX x0 b) (rowsY x1 b) k d - rowMean (mixCols (rowsX x0 b) (rowsY x1 b) k) := by
  rw [val_main_v44_apply, val_main_v43_apply]
  have ei : idx_main_v43 (ix3 b k d) = ix3 b k (⟨0, Nat.one_pos⟩ : Fin 1) := funext fun a => Fin.ext (by match a with | ⟨0, _⟩ => rfl | ⟨1, _⟩ => rfl | ⟨2, _⟩ => rfl)
  rw [ei, meanCols_apply, mixCols_apply]
  rfl

/-- The row's variance: the sum of the squared deviations, begun at the zero word, divided by the width word. -/
theorem varCols_apply (b : Fin 1024) (k : Fin 128) (z : Fin 1) :
    val_main_v42 (F := Ideal) x0 x1 (ix3 b k z) = rowVar (mixCols (rowsX x0 b) (rowsY x1 b) k) := by
  rw [val_main_v42_apply, val_main_v41_apply, val_main_cst_10_apply, val_main_v40_apply, val_main_v39_apply,
    val_main_cst_9_apply]
  unfold rowVar
  show Ideal.div (Ideal.ofBits .f32 0x00000000#32
      + ∑ e : Fin 256, val_main_v38 (F := Ideal) x0 x1 (idx_main_v39 (idx_main_v40 (ix3 b k z)) e)) cWidth = _
  rw [Ideal.ofBits_zero_f32, zero_add]
  refine congrArg (fun s : EReal => Ideal.div s cWidth) (Finset.sum_congr rfl fun e _ => ?_)
  have ei : idx_main_v39 (idx_main_v40 (ix3 b k z)) e = ix3 b k e := funext fun a => Fin.ext (by match a with | ⟨0, _⟩ => rfl | ⟨1, _⟩ => rfl | ⟨2, _⟩ => rfl)
  rw [ei, val_main_v38_apply, devCols_apply]
  rfl

/-- The reciprocal root of the variance plus the offset word. -/
theorem rstdCols_apply (b : Fin 1024) (k : Fin 128) (z : Fin 1) :
    val_main_v47 (F := Ideal) x0 x1 (ix3 b k z)
      = Ideal.rsqrt (rowVar (mixCols (rowsX x0 b) (rowsY x1 b) k) + cEps) := by
  rw [val_main_v47_apply, val_main_v46_apply, val_main_v45_apply, val_main_cst_11_apply, varCols_apply]
  rfl

/-- The normalised entry: deviation times reciprocal root, times the scale entry, plus the shift entry. -/
theorem normCols_apply (b : Fin 1024) (k : Fin 128) (d : Fin 256) :
    val_main_v55 (F := Ideal) x0 x1 x4 x5 (ix3 b k d)
      = rowNorm (mixCols (rowsX x0 b) (rowsY x1 b) k) (scaleV x4) (shiftV x5) d := by
  rw [val_main_v55_apply, val_main_v54_apply, val_main_v53_apply, val_main_v52_apply, val_main_v51_apply,
    val_main_v50_apply, val_main_v49_apply, val_main_v48_apply]
  have e4 : idx_main_v50 (idx_main_v51 (ix3 b k d)) = ix1 d := funext fun a => Fin.ext (by match a with | ⟨0, _⟩ => rfl)
  have e5 : idx_main_v53 (idx_main_v54 (ix3 b k d)) = ix1 d := funext fun a => Fin.ext (by match a with | ⟨0, _⟩ => rfl)
  have er : idx_main_v48 (ix3 b k d) = ix3 b k (⟨0, Nat.one_pos⟩ : Fin 1) := funext fun a => Fin.ext (by match a with | ⟨0, _⟩ => rfl | ⟨1, _⟩ => rfl | ⟨2, _⟩ => rfl)
  rw [e4, e5, er, rstdCols_apply, devCols'_apply]
  rfl

end Stages

/-! ## The two results: a row of the argument followed by the normalised row -/

/-- Row `n` of pair `b` in the first joined array: below position 256 the entry is the first piece's at the same
    coordinates, from 256 on it is the second piece's at the position less 256. -/
theorem joinedRows_apply (x0 : (⟨S65536x256, .f32⟩ : BufTy).Contents (Elt Ideal)) (x1 : (⟨S131072x256, .f32⟩ : BufTy).Contents (Elt Ideal))
    (x4 x5 : (⟨S256, .f32⟩ : BufTy).Contents (Elt Ideal)) (b : Fin 1024) (n : Fin 64) (j : Fin 512) :
    val_main_v56 (F := Ideal) x0 x1 x4 x5 (ix3 b n j)
      = firstRow (fun n d => val_main_v0 (F := Ideal) x0 (ix3 b n d)) (fun k d => val_main_v1 (F := Ideal) x1 (ix3 b k d))
          (fun d => x4 (ix1 d)) (fun d => x5 (ix1 d)) n j := by
  unfold val_main_v56 firstRow
  by_cases hj : j.val < 256
  · refine (concatenate_pair_apply_left (2 : Fin 3) (val_main_v0 (F := Ideal) x0) (val_main_v30 (F := Ideal) x0 x1 x4 x5)
      concatenates_S1024x64x256_S1024x64x256_S1024x64x512_d2 (ix3 b n j) rfl (ix3 b n (⟨j.val, hj⟩ : Fin 256))
      (fun a => match a with | ⟨0, _⟩ => rfl | ⟨1, _⟩ => rfl | ⟨2, _⟩ => rfl)).trans ?_
    exact (join_left (rowsX x0 b n) _ j ⟨j.val, hj⟩ rfl).symm
  · have hd : j.val - 256 < 256 := by have := j.isLt; omega
    refine (concatenate_pair_apply_right (2 : Fin 3) (val_main_v0 (F := Ideal) x0) (val_main_v30 (F := Ideal) x0 x1 x4 x5)
      concatenates_S1024x64x256_S1024x64x256_S1024x64x512_d2 (ix3 b n j) rfl rfl (ix3 b n (⟨j.val - 256, hd⟩ : Fin 256))
      (fun a => match a with | ⟨0, _⟩ => fun _ => rfl | ⟨1, _⟩ => fun _ => rfl | ⟨2, _⟩ => fun h => absurd rfl h)
      (by show j.val - 256 + 256 = j.val; omega)).trans ?_
    refine (normRows_apply x0 x1 x4 x5 b n ⟨j.val - 256, hd⟩).trans ?_
    exact (join_right _ _ j ⟨j.val - 256, hd⟩ (by show j.val = 256 + (j.val - 256); omega)).symm

/-- Row `k` of pair `b` in the second joined array, read the same way. -/
theorem joinedCols_apply (x0 : (⟨S65536x256, .f32⟩ : BufTy).Contents (Elt Ideal)) (x1 : (⟨S131072x256, .f32⟩ : BufTy).Contents (Elt Ideal))
    (x4 x5 : (⟨S256, .f32⟩ : BufTy).Contents (Elt Ideal)) (b : Fin 1024) (k : Fin 128) (j : Fin 512) :
    val_main_v58 (F := Ideal) x0 x1 x4 x5 (ix3 b k j)
      = secondRow (fun n d => val_main_v0 (F := Ideal) x0 (ix3 b n d)) (fun k d => val_main_v1 (F := Ideal) x1 (ix3 b k d))
          (fun d => x4 (ix1 d)) (fun d => x5 (ix1 d)) k j := by
  unfold val_main_v58 secondRow
  by_cases hj : j.val < 256
  · refine (concatenate_pair_apply_left (2 : Fin 3) (val_main_v1 (F := Ideal) x1) (val_main_v55 (F := Ideal) x0 x1 x4 x5)
      concatenates_S1024x128x256_S1024x128x256_S1024x128x512_d2 (ix3 b k j) rfl (ix3 b k (⟨j.val, hj⟩ : Fin 256))
      (fun a => match a with | ⟨0, _⟩ => rfl | ⟨1, _⟩ => rfl | ⟨2, _⟩ => rfl)).trans ?_
    exact (join_left (rowsY x1 b k) _ j ⟨j.val, hj⟩ rfl).symm
  · have hd : j.val - 256 < 256 := by have := j.isLt; omega
    refine (concatenate_pair_apply_right (2 : Fin 3) (val_main_v1 (F := Ideal) x1) (val_main_v55 (F := Ideal) x0 x1 x4 x5)
      concatenates_S1024x128x256_S1024x128x256_S1024x128x512_d2 (ix3 b k j) rfl rfl (ix3 b k (⟨j.val - 256, hd⟩ : Fin 256))
      (fun a => match a with | ⟨0, _⟩ => fun _ => rfl | ⟨1, _⟩ => fun _ => rfl | ⟨2, _⟩ => fun h => absurd rfl h)
      (by show j.val - 256 + 256 = j.val; omega)).trans ?_
    refine (normCols_apply x0 x1 x4 x5 b k ⟨j.val - 256, hd⟩).trans ?_
    exact (join_right _ _ j ⟨j.val - 256, hd⟩ (by show j.val = 256 + (j.val - 256); omega)).symm

end Cert.ReferenceIdeal.RefValue

end
-- ==== Proof.RefArrays.lean ====
/-
  The reference's two results as whole arrays. Its joined arrays, read entry by entry, are one pair's `firstRow` and
  `secondRow`; so as arrays they are `wholeFirst` and `wholeSecond` of the two arguments regrouped by pairs, and the results
  are those with their rows laid out again as `[65536, 512]` and `[131072, 512]`.
-/
import proofs.«137363_j29265907155226_1_alg».proof.Proof.RefValue
import proofs.«137363_j29265907155226_1_alg».proof.Proof.PairMixArrays

noncomputable section

namespace Cert.ReferenceIdeal.RefValue

open Cert.ReferenceIdeal Cert.ReferenceIdeal.Gen Cert.ReferenceIdeal.Read Idealize.ShloMosaic Idealize.ShloMosaic.ValueIdx Cert.PairMix

theorem joinedRows_eq (x0 : (⟨S65536x256, .f32⟩ : BufTy).Contents (Elt Ideal)) (x1 : (⟨S131072x256, .f32⟩ : BufTy).Contents (Elt Ideal))
    (x4 x5 : (⟨S256, .f32⟩ : BufTy).Contents (Elt Ideal)) :
    val_main_v56 (F := Ideal) x0 x1 x4 x5 = wholeFirst (val_main_v0 (F := Ideal) x0) (val_main_v1 (F := Ideal) x1) x4 x5 := by
  funext i
  refine (congrArg (val_main_v56 (F := Ideal) x0 x1 x4 x5) (eq_ix3 i)).trans ?_
  refine (joinedRows_apply x0 x1 x4 x5 (i 0) (i 1) (i 2)).trans ?_
  exact (wholeFirst_apply (val_main_v0 (F := Ideal) x0) (val_main_v1 (F := Ideal) x1) x4 x5 (i 0) (i 1) (i 2)).symm.trans
    (congrArg (wholeFirst (val_main_v0 (F := Ideal) x0) (val_main_v1 (F := Ideal) x1) x4 x5) (eq_ix3 i).symm)

theorem joinedCols_eq (x0 : (⟨S65536x256, .f32⟩ : BufTy).Contents (Elt Ideal)) (x1 : (⟨S131072x256, .f32⟩ : BufTy).Contents (Elt Ideal))
    (x4 x5 : (⟨S256, .f32⟩ : BufTy).Contents (Elt Ideal)) :
    val_main_v58 (F := Ideal) x0 x1 x4 x5 = wholeSecond (val_main_v0 (F := Ideal) x0) (val_main_v1 (F := Ideal) x1) x4 x5 := by
  funext i
  refine (congrArg (val_main_v58 (F := Ideal) x0 x1 x4 x5) (eq_ix3 i)).trans ?_
  refine (joinedCols_apply x0 x1 x4 x5 (i 0) (i 1) (i 2)).trans ?_
  exact (wholeSecond_apply (val_main_v0 (F := Ideal) x0) (val_main_v1 (F := Ideal) x1) x4 x5 (i 0) (i 1) (i 2)).symm.trans
    (congrArg (wholeSecond (val_main_v0 (F := Ideal) x0) (val_main_v1 (F := Ideal) x1) x4 x5) (eq_ix3 i).symm)

/-- The first result: the whole first result of the regrouped arguments, laid out as `[65536, 512]`. -/
theorem firstResult_eq (x0 : (⟨S65536x256, .f32⟩ : BufTy).Contents (Elt Ideal)) (x1 : (⟨S131072x256, .f32⟩ : BufTy).Contents (Elt Ideal))
    (x4 x5 : (⟨S256, .f32⟩ : BufTy).Contents (Elt Ideal)) :
    val_main_v57 (F := Ideal) x0 x1 x4 x5
      = shapeCast S65536x512 (wholeFirst (shapeCast S1024x64x256 x0 shapeCasts_S65536x256_S1024x64x256)
          (shapeCast S1024x128x256 x1 shapeCasts_S131072x256_S1024x128x256) x4 x5) shapeCasts_S1024x64x512_S65536x512 := by
  unfold val_main_v57
  rw [joinedRows_eq]
  rfl

theorem secondResult_eq (x0 : (⟨S65536x256, .f32⟩ : BufTy).Contents (Elt Ideal)) (x1 : (⟨S131072x256, .f32⟩ : BufTy).Contents (Elt Ideal))
    (x4 x5 : (⟨S256, .f32⟩ : BufTy).Contents (Elt Ideal)) :
    val_main_v59 (F := Ideal) x0 x1 x4 x5
      = shapeCast S131072x512 (wholeSecond (shapeCast S1024x64x256 x0 shapeCasts_S65536x256_S1024x64x256)
          (shapeCast S1024x128x256 x1 shapeCasts_S131072x256_S1024x128x256) x4 x5) shapeCasts_S1024x128x512_S131072x512 := by
  unfold val_main_v59
  rw [joinedCols_eq]
  rfl

end Cert.ReferenceIdeal.RefValue

end
-- ==== Proof.lean ====
/-
  The certificate's claims.

  Both programs compute, for each of 1024 pairs of matrices `x : 64 × 256` and `y : 128 × 256`, the clipped and scaled matrix
  `S` of the inner products of their rows, the products `S · y` and `Sᵀ · x`, normalise every row of the two products (mean,
  variance, reciprocal square root, scale `γ`, shift `β`), and return the rows of `x` followed by the normalised rows of
  `S · y`, and the rows of `y` followed by the normalised rows of `Sᵀ · x`. The kernel treats 16 pairs at each of 64 grid
  points; the reference treats all 1024 at once. Over the extended reals a change of float format is the identity, a matrix
  product into a zero accumulator and a host contraction are the same sum, a lane sum and a host sum from zero are the same
  sum, and a quotient by 256 is the same quotient on both sides; every constant is the same binary word on both sides. So
  both programs end with their results at ONE function of the arguments (`firstResult`, `secondResult`), entry by entry the
  same operations: no law of the extended reals that needs finiteness is used, and the precondition is never opened.

  The three frames are the generated ones (the reference's is its run with the results dropped); the kernel's idealization
  rewrote no operation, so `preserves` is trivial.
-/
import proofs.«137363_j29265907155226_1_alg».proof.Defs
import proofs.«137363_j29265907155226_1_alg».proof.Proof.Gen.Kernel
import proofs.«137363_j29265907155226_1_alg».proof.Proof.Gen.Kernel.Skeleton
import proofs.«137363_j29265907155226_1_alg».proof.Proof.Gen.Kernel.Launch
import proofs.«137363_j29265907155226_1_alg».proof.Proof.Gen.Kernel.Points
import proofs.«137363_j29265907155226_1_alg».proof.Proof.Gen.Kernel.Frame
import proofs.«137363_j29265907155226_1_alg».proof.Proof.Gen.KernelIdeal
import proofs.«137363_j29265907155226_1_alg».proof.Proof.Gen.KernelIdeal.Skeleton
import proofs.«137363_j29265907155226_1_alg».proof.Proof.Gen.KernelIdeal.Launch
import proofs.«137363_j29265907155226_1_alg».proof.Proof.Gen.KernelIdeal.Points
import proofs.«137363_j29265907155226_1_alg».proof.Proof.Gen.KernelIdeal.Frame
import proofs.«137363_j29265907155226_1_alg».proof.Proof.Gen.ReferenceIdeal
import proofs.«137363_j29265907155226_1_alg».proof.Proof.Gen.Pre_finite_inputs
import proofs.«137363_j29265907155226_1_alg».proof.Proof.Gen.ReferenceIdeal.Run
import proofs.«137363_j29265907155226_1_alg».proof.Proof.Gen.ReferenceIdeal.Read
import proofs.«137363_j29265907155226_1_alg».proof.Proof.KernelRun
import proofs.«137363_j29265907155226_1_alg».proof.Proof.RefArrays
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both idealized programs end with their results at `firstResult` and `secondResult` of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Arrays.firstResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.KernelIdeal.Arrays.secondResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v57_eq, Cert.ReferenceIdeal.RefValue.firstResult_eq,
      (hagree c).1, (hagree c).2.1, (hagree c).2.2.2.2.1, (hagree c).2.2.2.2.2]
    rfl
  · rw [Cert.ReferenceIdeal.Read.val_main_v59_eq, Cert.ReferenceIdeal.RefValue.secondResult_eq,
      (hagree c).1, (hagree c).2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
